-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S96x96 : Shape := ⟨2, ![96, 96]⟩
abbrev S96 : Shape := ⟨1, ![96]⟩
abbrev S800000 : Shape := ⟨1, ![800000]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg7 : FVec F S800000 .f32) (main_arg8 : IVec S800000 32) (main_v33 : IVec S_ 1) : IVec S_ 1 :=
  let main_v34 : FVec F S800000 .f32 := Host.absf main_arg7
  let main_cst_12 : FVec F S_ .f32 := constant S_ .f32 0x7F800000#32
  let main_v35 : FVec F S800000 .f32 := broadcastInDim S800000 ![] bcast_S_S800000 main_cst_12
  let main_v36 : IVec S800000 1 := cmpf .olt main_v34 main_v35
  let main_c_13 : IVec S_ 1 := constantI S_ 1 1#1
  let main_v37 : IVec S_ 1 := (fun x v => Host.reduce IntOp.andi x v reducesTo_S800000_S_d0 h_S_) main_v36 main_c_13
  let main_v38 : IVec S_ 1 := andi main_v33 main_v37
  let main_c_14 : IVec S_ 32 := constantI S_ 32 0#32
  let main_v39 : IVec S800000 32 := broadcastInDim S800000 ![] bcast_S_S800000 main_c_14
  let main_v40 : IVec S800000 1 := cmpi .sge main_arg8 main_v39
  let main_c_15 : IVec S_ 32 := constantI S_ 32 50000#32
  let main_v41 : IVec S800000 32 := broadcastInDim S800000 ![] bcast_S_S800000 main_c_15
  let main_v42 : IVec S800000 1 := cmpi .slt main_arg8 main_v41
  let main_v43 : IVec S800000 1 := andi main_v40 main_v42
  let main_c_16 : IVec S_ 1 := constantI S_ 1 1#1
  let main_v44 : IVec S_ 1 := (fun x v => Host.reduce IntOp.andi x v reducesTo_S800000_S_d0 h_S_) main_v43 main_c_16
  let main_v45 : IVec S_ 1 := andi main_v38 main_v44
  main_v45

def fn_part1 {F : FTy → Type} [FloatOps F] (main_arg4 : FVec F S96x96 .f32) (main_arg5 : FVec F S96x96 .f32) (main_arg6 : FVec F S96 .f32) (main_arg7 : FVec F S800000 .f32) (main_arg8 : IVec S800000 32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg4
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96x96 .f32 := Host.absf main_arg5
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg6
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg7 main_arg8 main_v33

def fn {F : FTy → Type} [FloatOps F] (main_arg0 : FVec F S50000x96 .f32) (main_arg1 : FVec F S96x96 .f32) (main_arg2 : FVec F S96x96 .f32) (main_arg3 : FVec F S96 .f32) (main_arg4 : FVec F S96x96 .f32) (main_arg5 : FVec F S96x96 .f32) (main_arg6 : FVec F S96 .f32) (main_arg7 : FVec F S800000 .f32) (main_arg8 : IVec S800000 32) (main_arg9 : IVec S800000 32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg1
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96x96 .f32 := Host.absf main_arg2
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg4 main_arg5 main_arg6 main_arg7 main_arg8 main_v13 main_v16
-- ==== Kernel.lean ====
abbrev S50000x96 : Shape := ⟨2, ![50000, 96]⟩
abbrev S96x96 : Shape := ⟨2, ![96, 96]⟩
abbrev S96 : Shape := ⟨1, ![96]⟩
abbrev S800000 : Shape := ⟨1, ![800000]⟩
abbrev S2000x96 : Shape := ⟨2, ![2000, 96]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x96 : Shape := ⟨2, ![800000, 96]⟩
abbrev S1x96 : Shape := ⟨2, ![1, 96]⟩

abbrev nBuf : Space → Nat
  | .hbm => 78
  | .vmem => 32
  | .smem => 0
  | _ => 0

abbrev bufTy : (tb : Table) → Fin (tcTables nBuf tb) → BufTy
  | .hbm, ⟨0, _⟩ => ⟨S50000x96, .f32⟩
  | .hbm, ⟨1, _⟩ => ⟨S96x96, .f32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96x96, .f32⟩
  | .hbm, ⟨6, _⟩ => ⟨S96, .f32⟩
  | .hbm, ⟨7, _⟩ => ⟨S800000, .f32⟩
  | .hbm, ⟨8, _⟩ => ⟨S800000, .i32⟩
  | .hbm, ⟨9, _⟩ => ⟨S800000, .i32⟩
  | .hbm, ⟨10, _⟩ => ⟨S50000x96, .f32⟩
  | .hbm, ⟨11, _⟩ => ⟨S50000x96, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S1, .i32⟩
  | .hbm, ⟨21, _⟩ => ⟨S_, .i32⟩
  | .hbm, ⟨22, _⟩ => ⟨S800000x1, .i32⟩
  | .hbm, ⟨23, _⟩ => ⟨S800000x1, .i1⟩
  | .hbm, ⟨24, _⟩ => ⟨S1x1, .i32⟩
  | .hbm, ⟨25, _⟩ => ⟨S800000x1, .i32⟩
  | .hbm, ⟨26, _⟩ => ⟨S800000x1, .i1⟩
  | .hbm, ⟨27, _⟩ => ⟨S800000x1, .i1⟩
  | .hbm, ⟨28, _⟩ => ⟨S_, .i1⟩
  | .hbm, ⟨29, _⟩ => ⟨S800000, .i1⟩
  | .hbm, ⟨30, _⟩ => ⟨S800000x96, .f32⟩
  | .hbm, ⟨31, _⟩ => ⟨S800000x96, .i1⟩
  | .hbm, ⟨32, _⟩ => ⟨S_, .f32⟩
  | .hbm, ⟨33, _⟩ => ⟨S800000x96, .f32⟩
  | .hbm, ⟨34, _⟩ => ⟨S800000x96, .f32⟩
  | .hbm, ⟨35, _⟩ => ⟨S800000x1, .f32⟩
  | .hbm, ⟨36, _⟩ => ⟨S800000x96, .f32⟩
  | .hbm, ⟨37, _⟩ => ⟨S800000x96, .f32⟩
  | .hbm, ⟨38, _⟩ => ⟨S_, .f32⟩
  | .hbm, ⟨39, _⟩ => ⟨S50000x96, .f32⟩
  | .hbm, ⟨40, _⟩ => ⟨S800000x1, .i32⟩
  | .hbm, ⟨41, _⟩ => ⟨S50000x96, .f32⟩
  | .hbm, ⟨42, _⟩ => ⟨S1x96, .f32⟩
  | .hbm, ⟨43, _⟩ => ⟨S50000x96, .f32⟩
  | .hbm, ⟨44, _⟩ => ⟨S50000x96, .f32⟩
  | .hbm, ⟨45, _⟩ => ⟨S50000x96, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S1, .i32⟩
  | .hbm, ⟨55, _⟩ => ⟨S_, .i32⟩
  | .hbm, ⟨56, _⟩ => ⟨S800000x1, .i32⟩
  | .hbm, ⟨57, _⟩ => ⟨S800000x1, .i1⟩
  | .hbm, ⟨58, _⟩ => ⟨S1x1, .i32⟩
  | .hbm, ⟨59, _⟩ => ⟨S800000x1, .i32⟩
  | .hbm, ⟨60, _⟩ => ⟨S800000x1, .i1⟩
  | .hbm, ⟨61, _⟩ => ⟨S800000x1, .i1⟩
  | .hbm, ⟨62, _⟩ => ⟨S_, .i1⟩
  | .hbm, ⟨63, _⟩ => ⟨S800000, .i1⟩
  | .hbm, ⟨64, _⟩ => ⟨S800000x96, .f32⟩
  | .hbm, ⟨65, _⟩ => ⟨S800000x96, .i1⟩
  | .hbm, ⟨66, _⟩ => ⟨S_, .f32⟩
  | .hbm, ⟨67, _⟩ => ⟨S800000x96, .f32⟩
  | .hbm, ⟨68, _⟩ => ⟨S800000x96, .f32⟩
  | .hbm, ⟨69, _⟩ => ⟨S800000x1, .f32⟩
  | .hbm, ⟨70, _⟩ => ⟨S800000x96, .f32⟩
  | .hbm, ⟨71, _⟩ => ⟨S800000x96, .f32⟩
  | .hbm, ⟨72, _⟩ => ⟨S_, .f32⟩
  | .hbm, ⟨73, _⟩ => ⟨S50000x96, .f32⟩
  | .hbm, ⟨74, _⟩ => ⟨S800000x1, .i32⟩
  | .hbm, ⟨75, _⟩ => ⟨S50000x96, .f32⟩
  | .hbm, ⟨76, _⟩ => ⟨S1x96, .f32⟩
  | .hbm, ⟨77, _⟩ => ⟨S50000x96, .f32⟩
  | .local _ .vmem, ⟨0, _⟩ => ⟨S2000x96, .f32⟩
  | .local _ .vmem, ⟨1, _⟩ => ⟨S2000x96, .f32⟩
  | .local _ .vmem, ⟨2, _⟩ => ⟨S96x96, .f32⟩
  | .local _ .vmem, ⟨3, _⟩ => ⟨S96x96, .f32⟩
  | .local _ .vmem, ⟨4, _⟩ => ⟨S2000x96, .f32⟩
  | .local _ .vmem, ⟨5, _⟩ => ⟨S2000x96, .f32⟩
  | .local _ .vmem, ⟨6, _⟩ => ⟨S2000x96, .f32⟩
  | .local _ .vmem, ⟨7, _⟩ => ⟨S2000x96, .f32⟩
  | .local _ .vmem, ⟨8, _⟩ => ⟨S2000x96, .f32⟩
  | .local _ .vmem, ⟨9, _⟩ => ⟨S2000x96, .f32⟩
  | .local _ .vmem, ⟨10, _⟩ => ⟨S2000x96, .f32⟩
  | .local _ .vmem, ⟨11, _⟩ => ⟨S2000x96, .f32⟩
  | .local _ .vmem, ⟨12, _⟩ => ⟨S1x96, .f32⟩
  | .local _ .vmem, ⟨13, _⟩ => ⟨S2000x96, .f32⟩
  | .local _ .vmem, ⟨14, _⟩ => ⟨S2000x96, .f32⟩
  | .local _ .vmem, ⟨15, _⟩ => ⟨S2000x96, .f32⟩
  | .local _ .vmem, ⟨16, _⟩ => ⟨S2000x96, .f32⟩
  | .local _ .vmem, ⟨17, _⟩ => ⟨S96x96, .f32⟩
  | .local _ .vmem, ⟨18, _⟩ => ⟨S96x96, .f32⟩
  | .local _ .vmem, ⟨19, _⟩ => ⟨S2000x96, .f32⟩
  | .local _ .vmem, ⟨20, _⟩ => ⟨S2000x96, .f32⟩
  | .local _ .vmem, ⟨21, _⟩ => ⟨S2000x96, .f32⟩
  | .local _ .vmem, ⟨22, _⟩ => ⟨S2000x96, .f32⟩
  | .local _ .vmem, ⟨23, _⟩ => ⟨S2000x96, .f32⟩
  | .local _ .vmem, ⟨24, _⟩ => ⟨S2000x96, .f32⟩
  | .local _ .vmem, ⟨25, _⟩ => ⟨S2000x96, .f32⟩
  | .local _ .vmem, ⟨26, _⟩ => ⟨S2000x96, .f32⟩
  | .local _ .vmem, ⟨27, _⟩ => ⟨S2000x96, .f32⟩
  | .local _ .vmem, ⟨28, _⟩ => ⟨S2000x96, .f32⟩
  | .local _ .vmem, ⟨29, _⟩ => ⟨S1x96, .f32⟩
  | .local _ .vmem, ⟨30, _⟩ => ⟨S2000x96, .f32⟩
  | .local _ .vmem, ⟨31, _⟩ => ⟨S2000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_cst : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10_0 : Ref sig .tc := ⟨.hbm, 44, rfl⟩
abbrev main_v10_1 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_cst_0 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S96x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x96 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x96 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x96 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x96 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  inb_S2000x96_S2000x96_0_0 : ∀ a, (![0, 0] : Fin 2 → Nat) a + S2000x96.size a ≤ S2000x96.size a
  h_S2000x96 : 0 < S2000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x96_0 : S800000.BroadcastsInDim S800000x96 (![0] : Fin 1 → Fin S800000x96.rank)
  bcast_S_S800000x96 : S_.BroadcastsInDim S800000x96 (![] : Fin 0 → Fin S800000x96.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  shapeCasts_S96_S1x96 : S96.ShapeCasts S1x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  shapeCasts_S2000x96_S2000x96 : S2000x96.ShapeCasts S2000x96
  dot_S2000x96_S96x96_S2000x96_1_0_0_1_n_n_wf : DotDims.WF S2000x96 S96x96 S2000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x96.size a ≤ S50000x96.size a
  hwx0_3 : ∀ i : grid0.Coords, EltTy.bits .f32 = 32 ∨ (Rect.block (s := S50000x96) S2000x96.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x96.size a ≤ S50000x96.size a
  hwx0_4 : ∀ i : grid0.Coords, EltTy.bits .f32 = 32 ∨ (Rect.block (s := S50000x96) S2000x96.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x96.size a ≤ S50000x96.size a
  hwx1_1 : ∀ i : grid1.Coords, EltTy.bits .f32 = 32 ∨ (Rect.block (s := S50000x96) S2000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x96.size a ≤ S50000x96.size a
  hwx1_3 : ∀ i : grid1.Coords, EltTy.bits .f32 = 32 ∨ (Rect.block (s := S50000x96) S2000x96.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x96.size a ≤ S50000x96.size a
  hwx2_0 : ∀ i : grid2.Coords, EltTy.bits .f32 = 32 ∨ (Rect.block (s := S50000x96) S2000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x96.size a ≤ S96x96.size a
  hwx2_1 : ∀ i : grid2.Coords, EltTy.bits .f32 = 32 ∨ (Rect.block (s := S96x96) S96x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96x96.size a ≤ S96x96.size a
  hwx2_2 : ∀ i : grid2.Coords, EltTy.bits .f32 = 32 ∨ (Rect.block (s := S96x96) S96x96.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x96.size a ≤ S50000x96.size a
  hwx2_3 : ∀ i : grid2.Coords, EltTy.bits .f32 = 32 ∨ (Rect.block (s := S50000x96) S2000x96.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x96.size a ≤ S50000x96.size a
  hwx2_4 : ∀ i : grid2.Coords, EltTy.bits .f32 = 32 ∨ (Rect.block (s := S50000x96) S2000x96.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x96.size a ≤ S50000x96.size a
  hwx3_0 : ∀ i : grid3.Coords, EltTy.bits .f32 = 32 ∨ (Rect.block (s := S50000x96) S2000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x96.size a ≤ S50000x96.size a
  hwx3_1 : ∀ i : grid3.Coords, EltTy.bits .f32 = 32 ∨ (Rect.block (s := S50000x96) S2000x96.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x96.size a ≤ S50000x96.size a
  hwx3_2 : ∀ i : grid3.Coords, EltTy.bits .f32 = 32 ∨ (Rect.block (s := S50000x96) S2000x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x96.size a ≤ S1x96.size a
  hwx3_3 : ∀ i : grid3.Coords, EltTy.bits .f32 = 32 ∨ (Rect.block (s := S1x96) S1x96.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x96.size a ≤ S50000x96.size a
  hwx3_4 : ∀ i : grid3.Coords, EltTy.bits .f32 = 32 ∨ (Rect.block (s := S50000x96) S2000x96.size (cc3_transform_4 i) (hinb3_4 i)).WholeWords (EltTy.packing .f32)

variable [Facts₀]

def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

abbrev win0_0 : Pipeline.Window sig grid0 :=
  Pipeline.Window.ofSpec (Memref.whole main_arg0) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S2000x96.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S2000x96.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v7) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S2000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S2000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S2000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S96x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S96x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10_0) S2000x96.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v10_1) S2000x96.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg0) S2000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S2000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10_1) S2000x96.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v18) S1x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v19) S2000x96.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x96 : Shape := ⟨2, ![50000, 96]⟩
abbrev S96x96 : Shape := ⟨2, ![96, 96]⟩
abbrev S96 : Shape := ⟨1, ![96]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩

abbrev nBuf : Space → Nat
  | .hbm => 64
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S96x96, .f32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96x96, .f32⟩
  | .hbm, ⟨6, _⟩ => ⟨S96, .f32⟩
  | .hbm, ⟨7, _⟩ => ⟨S800000, .f32⟩
  | .hbm, ⟨8, _⟩ => ⟨S800000, .i32⟩
  | .hbm, ⟨9, _⟩ => ⟨S800000, .i32⟩
  | .hbm, ⟨10, _⟩ => ⟨S50000x96, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x96, .f32⟩
  | .hbm, ⟨20, _⟩ => ⟨S800000x1, .f32⟩
  | .hbm, ⟨21, _⟩ => ⟨S800000x96, .f32⟩
  | .hbm, ⟨22, _⟩ => ⟨S800000x96, .f32⟩
  | .hbm, ⟨23, _⟩ => ⟨S_, .f32⟩
  | .hbm, ⟨24, _⟩ => ⟨S50000x96, .f32⟩
  | .hbm, ⟨25, _⟩ => ⟨S800000x1, .i32⟩
  | .hbm, ⟨26, _⟩ => ⟨S50000x96, .f32⟩
  | .hbm, ⟨27, _⟩ => ⟨S50000x96, .f32⟩
  | .hbm, ⟨28, _⟩ => ⟨S50000x96, .f32⟩
  | .hbm, ⟨29, _⟩ => ⟨S1x96, .f32⟩
  | .hbm, ⟨30, _⟩ => ⟨S50000x96, .f32⟩
  | .hbm, ⟨31, _⟩ => ⟨S50000x96, .f32⟩
  | .hbm, ⟨32, _⟩ => ⟨S_, .f32⟩
  | .hbm, ⟨33, _⟩ => ⟨S50000x96, .f32⟩
  | .hbm, ⟨34, _⟩ => ⟨S50000x96, .f32⟩
  | .hbm, ⟨35, _⟩ => ⟨S50000x96, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x96, .f32⟩
  | .hbm, ⟨45, _⟩ => ⟨S800000x1, .f32⟩
  | .hbm, ⟨46, _⟩ => ⟨S800000x96, .f32⟩
  | .hbm, ⟨47, _⟩ => ⟨S800000x96, .f32⟩
  | .hbm, ⟨48, _⟩ => ⟨S_, .f32⟩
  | .hbm, ⟨49, _⟩ => ⟨S50000x96, .f32⟩
  | .hbm, ⟨50, _⟩ => ⟨S800000x1, .i32⟩
  | .hbm, ⟨51, _⟩ => ⟨S50000x96, .f32⟩
  | .hbm, ⟨52, _⟩ => ⟨S50000x96, .f32⟩
  | .hbm, ⟨53, _⟩ => ⟨S50000x96, .f32⟩
  | .hbm, ⟨54, _⟩ => ⟨S1x96, .f32⟩
  | .hbm, ⟨55, _⟩ => ⟨S50000x96, .f32⟩
  | .hbm, ⟨56, _⟩ => ⟨S50000x96, .f32⟩
  | .hbm, ⟨57, _⟩ => ⟨S_, .f32⟩
  | .hbm, ⟨58, _⟩ => ⟨S50000x96, .f32⟩
  | .hbm, ⟨59, _⟩ => ⟨S50000x96, .f32⟩
  | .hbm, ⟨60, _⟩ => ⟨S50000x96, .f32⟩
  | .hbm, ⟨61, _⟩ => ⟨S_, .f32⟩
  | .hbm, ⟨62, _⟩ => ⟨S50000x96, .f32⟩
  | .hbm, ⟨63, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_c_1 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call1_cst : Ref sig .tc := ⟨.hbm, 57, rfl⟩
abbrev main_call1_v0 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  dot_S50000x96_S96x96_S50000x96_1_0_0_1_n_n_wf : DotDims.WF S50000x96 S96x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1

variable [Facts₀]

def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

class Facts : Prop extends Facts₀ where

variable [Facts]
-- ==== Proof.Spec.lean ====
/-
  Two rounds of weighted neighbour aggregation on a graph of 50000 nodes with 96 features and 800000 weighted edges,
  then the average with the input. One round sends each node's features through a weight matrix (`mm`), reads
  the product at every edge's source (`messages`: the row gathered at the source index, a negative index counted from
  the end, times the edge's weight), adds the messages into their destination rows (`aggregate`, from zero), adds
  the node's own features through a second matrix and the bias, and clips at zero (`layer`). The result is
  `(x + layer (layer x)) / 2` (`out`). Everything is stated on whole arrays with the host operations of the
  reference program, for any float values.
-/
import proofs.«400572_j71305047048353_1_alg».proof.Proof.Gen.ReferenceIdeal
import Idealize.ShloMosaic.PureOps.Ideal

noncomputable section

namespace Cert.Spec

open Cert.ReferenceIdeal Cert.ReferenceIdeal.Gen Idealize.ShloMosaic

variable {F : FTy → Type} [FloatOps F]

/-- The node features times a weight matrix: entry `(n, j)` is the sum over `k` of `x (n, k) · w (k, j)`. -/
def mm (x : FVec F S50000x96 .f32) (w : FVec F S96x96 .f32) : FVec F S50000x96 .f32 :=
  Host.dotGeneral dot_S50000x96_S96x96_S50000x96_1_0_0_1_n_n none x w

/-- The edges' source rows as a column of start indices: a negative source counts from the last node. -/
def srcIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- One message per edge: the source node's row of `sup`, times the edge's weight. -/
def messages (sup : FVec F S50000x96 .f32) (w : FVec F S800000 .f32) (src : IVec S800000 32) : FVec F S800000x96 .f32 :=
  mulf (Host.gather gather_S50000x96_S800000x1_S800000x96_1_0_n_n_0_1_196 sup (srcIdx src))
    (broadcastInDim S800000x96 ![0, 1] bcast_S800000x1_S800000x96_0_1 (broadcastInDim S800000x1 ![0] bcast_S800000_S800000x1_0 w))

/-- The messages added into their destination nodes' rows, from zero. -/
def aggregate (msg : FVec F S800000x96 .f32) (dst : IVec S800000 32) : FVec F S50000x96 .f32 :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0 dst) msg

/-- The aggregate, the node's own term and the bias row added, clipped at zero: entry `(n, j)` is
    `max ((agg (n, j) + own (n, j)) + brow (0, j)) 0`. -/
def combine (agg own : FVec F S50000x96 .f32) (brow : FVec F S1x96 .f32) : FVec F S50000x96 .f32 :=
  maximumf (addf (addf agg own) (broadcastInDim S50000x96 ![0, 1] bcast_S1x96_S50000x96_0_1 brow))
    (broadcastInDim S50000x96 ![] bcast_S_S50000x96 (constant S_ .f32 0x00000000#32))

/-- One round: `max (aggregate + x·wl + b) 0`. -/
def layer (x : FVec F S50000x96 .f32) (w wl : FVec F S96x96 .f32) (b : FVec F S96 .f32) (ew : FVec F S800000 .f32)
    (src dst : IVec S800000 32) : FVec F S50000x96 .f32 :=
  combine (aggregate (messages (mm x w) ew src) dst) (mm x wl) (broadcastInDim S1x96 ![1] bcast_S96_S1x96_1 b)

/-- The average of the input and the second round's output: entry `(n, j)` is `(x (n, j) + h (n, j)) · 1/2`. -/
def finish (x h : FVec F S50000x96 .f32) : FVec F S50000x96 .f32 :=
  mulf (addf x h) (broadcastInDim S50000x96 ![] bcast_S_S50000x96 (constant S_ .f32 0x3F000000#32))

/-- The whole computation: the input averaged with two rounds of it. -/
def out (x : FVec F S50000x96 .f32) (w1 w1l : FVec F S96x96 .f32) (b1 : FVec F S96 .f32) (w2 w2l : FVec F S96x96 .f32)
    (b2 : FVec F S96 .f32) (ew : FVec F S800000 .f32) (src dst : IVec S800000 32) : FVec F S50000x96 .f32 :=
  finish x (layer (layer x w1 w1l b1 ew src dst) w2 w2l b2 ew src dst)

end Cert.Spec

end
-- ==== Proof.Region0.lean ====
/-
  A matrix-product region: each of the 25 grid points multiplies a block of 2000 rows of a 50000 by 96 array by two
  96 by 96 weights, from a zero accumulator, and writes the two products back as the same rows of two output arrays.
  Entry (p, q) of a block's product is the sum over k of the block's entry (p, k) times the weight's entry (k, q); row p
  of block t is row 2000·t + p of the array, and the weight windows sit at block (0, 0) at every point. So each output
  array ends as the whole-array product of the row array with its weight.
-/
import proofs.«400572_j71305047048353_1_alg».proof.Proof.Spec
import proofs.«400572_j71305047048353_1_alg».proof.Proof.Gen.KernelIdeal.Frame
import proofs.«400572_j71305047048353_1_alg».proof.Proof.Gen.ReferenceIdeal.Read
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen
open Idealize.ShloMosaic Idealize.ShloMosaic.TcCoe Idealize.SL.Sem
open Idealize.ShloMosaic.Pipeline (Dat)
open Idealize.ShloMosaic.ValueIdx (ix2 eq_ix2)

variable (V : (c : Dev nD) → (b : Ref sig .tc) → Buf (Elt Ideal) ((c : Thread nD τ).loc b))

/-! ## The block product at an entry -/

/-- The product keeps the block's row axis … -/
theorem lhs_axis0 (i : S2000x96.Idx) (q : dot_S2000x96_S96x96_S2000x96_1_0_0_1_n_n.contr.Idx) :
    (dot_S2000x96_S96x96_S2000x96_1_0_0_1_n_n.lhsIdx i q 0).val = (i 0).val := by
  unfold DotDims.lhsIdx
  rw [dif_neg (show ¬(0 : Fin S2000x96.rank) ∈ dot_S2000x96_S96x96_S2000x96_1_0_0_1_n_n.lhsBatch by decide), dif_pos (show (0 : Fin S2000x96.rank) ∈ dot_S2000x96_S96x96_S2000x96_1_0_0_1_n_n.lhsNonContracting by decide)]
  rfl
/-- … contracts the block's column axis … -/
theorem lhs_axis1 (i : S2000x96.Idx) (q : dot_S2000x96_S96x96_S2000x96_1_0_0_1_n_n.contr.Idx) :
    (dot_S2000x96_S96x96_S2000x96_1_0_0_1_n_n.lhsIdx i q 1).val = (q ⟨0, by decide⟩).val :=
  dot_S2000x96_S96x96_S2000x96_1_0_0_1_n_n.lhsIdx_val_of_single rfl i q
/-- … against the weight's row axis … -/
theorem rhs_axis0 (i : S2000x96.Idx) (q : dot_S2000x96_S96x96_S2000x96_1_0_0_1_n_n.contr.Idx) :
    (dot_S2000x96_S96x96_S2000x96_1_0_0_1_n_n.rhsIdx i q 0).val = (q ⟨0, by decide⟩).val :=
  dot_S2000x96_S96x96_S2000x96_1_0_0_1_n_n.rhsIdx_val_of_single rfl i q
/-- … and keeps the weight's column axis. -/
theorem rhs_axis1 (i : S2000x96.Idx) (q : dot_S2000x96_S96x96_S2000x96_1_0_0_1_n_n.contr.Idx) :
    (dot_S2000x96_S96x96_S2000x96_1_0_0_1_n_n.rhsIdx i q 1).val = (i 1).val := by
  unfold DotDims.rhsIdx
  rw [dif_neg (show ¬(1 : Fin S96x96.rank) ∈ dot_S2000x96_S96x96_S2000x96_1_0_0_1_n_n.rhsBatch by decide), dif_pos (show (1 : Fin S96x96.rank) ∈ dot_S2000x96_S96x96_S2000x96_1_0_0_1_n_n.rhsNonContracting by decide)]
  rfl

/-- One entry of the product of a 2000-row block with a 96 by 96 weight, from a zero accumulator:
    the sum over k of the block's entry (p, k) times the weight's entry (k, q). -/
theorem blockProduct_apply (x : FVec Ideal S2000x96 .f32) (w : FVec Ideal S96x96 .f32) (p : Fin 2000) (q : Fin 96) :
    matmul (F := Ideal) dot_S2000x96_S96x96_S2000x96_1_0_0_1_n_n none x w (constant (F := Ideal) S2000x96 .f32 0x00000000#32) (ix2 p q)
      = ∑ k : Fin 96, x (ix2 p k) * w (ix2 k q) := by
  refine (Ideal.matmul_constant_zero_apply dot_S2000x96_S96x96_S2000x96_1_0_0_1_n_n none x w (ix2 p q)).trans ?_
  rw [← Equiv.sum_comp (ValueIdx.contrEquiv1 dot_S2000x96_S96x96_S2000x96_1_0_0_1_n_n 96 rfl rfl).symm]
  refine Finset.sum_congr rfl fun k _ => ?_
  have hk := ValueIdx.contrEquiv1_symm_val dot_S2000x96_S96x96_S2000x96_1_0_0_1_n_n 96 rfl rfl k
  have el : dot_S2000x96_S96x96_S2000x96_1_0_0_1_n_n.lhsIdx (ix2 p q) ((ValueIdx.contrEquiv1 dot_S2000x96_S96x96_S2000x96_1_0_0_1_n_n 96 rfl rfl).symm k) = ix2 p k := funext fun a => Fin.ext (by
    match a with
    | ⟨0, _⟩ => exact lhs_axis0 _ _
    | ⟨1, _⟩ => exact (lhs_axis1 _ _).trans hk)
  have er : dot_S2000x96_S96x96_S2000x96_1_0_0_1_n_n.rhsIdx (ix2 p q) ((ValueIdx.contrEquiv1 dot_S2000x96_S96x96_S2000x96_1_0_0_1_n_n 96 rfl rfl).symm k) = ix2 k q := funext fun a => Fin.ext (by
    match a with
    | ⟨0, _⟩ => exact (rhs_axis0 _ _).trans hk
    | ⟨1, _⟩ => exact rhs_axis1 _ _)
  rw [el, er]

/-- The body's two stored values are that product of the loaded block with each loaded weight (the casts to
    bf16 change nothing on extended reals). -/
theorem firstProduct_apply (x : Vec Ideal S2000x96 .f32) (w : Vec Ideal S96x96 .f32) (p : Fin 2000) (q : Fin 96) :
    k0_pay2 (F := Ideal) x w (ix2 p q) = ∑ k : Fin 96, x (ix2 p k) * w (ix2 k q) :=
  blockProduct_apply x w p q
theorem secondProduct_apply (x : Vec Ideal S2000x96 .f32) (w : Vec Ideal S96x96 .f32) (p : Fin 2000) (q : Fin 96) :
    k0_pay3 (F := Ideal) x w (ix2 p q) = ∑ k : Fin 96, x (ix2 p k) * w (ix2 k q) :=
  blockProduct_apply x w p q

/-! ## The whole-array product at an entry -/

/-- One entry of the whole-array product: the sum over k of x (n, k) times w (k, j). -/
theorem mm_apply (x : FVec Ideal Cert.ReferenceIdeal.S50000x96 .f32) (w : FVec Ideal Cert.ReferenceIdeal.S96x96 .f32) (n : Fin 50000) (j : Fin 96) :
    Cert.Spec.mm (F := Ideal) x w (ix2 n j) = ∑ k : Fin 96, x (ix2 n k) * w (ix2 k j) := by
  have e : Cert.Spec.mm (F := Ideal) x w = Cert.ReferenceIdeal.Read.val_main_v0 (F := Ideal) x w := rfl
  rw [e, Cert.ReferenceIdeal.Read.val_main_v0_apply]
  refine Finset.sum_congr rfl fun k _ => ?_
  have el : Cert.ReferenceIdeal.Read.lidx_main_v0 (ix2 n j) k = ix2 n k := funext fun a => Fin.ext (by match a with | ⟨0, _⟩ => rfl | ⟨1, _⟩ => rfl)
  have er : Cert.ReferenceIdeal.Read.ridx_main_v0 (ix2 n j) k = ix2 k j := funext fun a => Fin.ext (by match a with | ⟨0, _⟩ => rfl | ⟨1, _⟩ => rfl)
  rw [el, er]

/-! ## Blocks as rows of the arrays -/

theorem zero_offsets : (![0, 0] : Fin 2 → Nat) = fun _ => 0 := funext fun a => by fin_cases a <;> rfl

/-- The index maps over the 25 points: the three row windows sit at block (t, 0), the two weight windows at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of block t is row 2000·t + p of the array. -/
def rowOf (t : Fin cfg0.N) (p : Fin 2000) : Fin 50000 :=
  ⟨2000 * t.val + p.val, by have ht : t.val < 25 := t.isLt; have hp := p.isLt; omega⟩

/-- The row window's block at point t holds rows 2000·t … 2000·t + 1999 of the row array. -/
theorem rows_block (c : Dev nD) (t : Fin cfg0.N) (p : Fin 2000) (k : Fin 96) :
    (iblk0 V c 0 t : Vec Ideal S2000x96 .f32) (ix2 p k) = (V c main_arg0 : S50000x96.Idx → Elt Ideal .f32) (ix2 (rowOf t p) k) := by
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 2000 + 1 * p.val = 2000 * t.val + p.val; omega
  | ⟨1, _⟩ => show win0_0.index t (1 : Fin 2) * 96 + 1 * k.val = k.val; omega

/-- The first weight window's block at every point is the whole weight. -/
theorem weight1_block (c : Dev nD) (t : Fin cfg0.N) (k q : Fin 96) :
    (iblk0 V c 1 t : Vec Ideal S96x96 .f32) (ix2 k q) = (V c main_arg1 : S96x96.Idx → Elt Ideal .f32) (ix2 k q) := by
  obtain ⟨-, -, e2, e3, -⟩ := block_indices t
  unfold iblk0
  rw [View.read_apply]
  show V c main_arg1 _ = V c main_arg1 _
  congr 1
  funext a
  apply Fin.ext
  match a with
  | ⟨0, _⟩ => show win0_1.index t (0 : Fin 2) * 96 + 1 * k.val = k.val; omega
  | ⟨1, _⟩ => show win0_1.index t (1 : Fin 2) * 96 + 1 * q.val = q.val; omega

/-- The second weight window's block at every point is the whole weight. -/
theorem weight2_block (c : Dev nD) (t : Fin cfg0.N) (k q : Fin 96) :
    (iblk0 V c 2 t : Vec Ideal S96x96 .f32) (ix2 k q) = (V c main_arg2 : S96x96.Idx → Elt Ideal .f32) (ix2 k q) := by
  obtain ⟨-, -, -, -, e4, e5, -⟩ := block_indices t
  unfold iblk0
  rw [View.read_apply]
  show V c main_arg2 _ = V c main_arg2 _
  congr 1
  funext a
  apply Fin.ext
  match a with
  | ⟨0, _⟩ => show win0_2.index t (0 : Fin 2) * 96 + 1 * k.val = k.val; omega
  | ⟨1, _⟩ => show win0_2.index t (1 : Fin 2) * 96 + 1 * q.val = q.val; omega

/-- Entry (p, q) of the first output window's block at point t is entry (2000·t + p, q) of its array. -/
theorem out3_entry (t : Fin cfg0.N) (p : Fin 2000) (q : Fin 96) :
    ((cfg0.win 3).blk t).view.emb (ix2 p q) = ix2 (rowOf t p) q := by
  obtain ⟨-, -, -, -, -, -, e6, e7, -⟩ := block_indices t
  funext a
  apply Fin.ext
  match a with
  | ⟨0, _⟩ => show win0_3.index t (0 : Fin 2) * 2000 + 1 * p.val = 2000 * t.val + p.val; omega
  | ⟨1, _⟩ => show win0_3.index t (1 : Fin 2) * 96 + 1 * q.val = q.val; omega

/-- Entry (p, q) of the second output window's block at point t is entry (2000·t + p, q) of its array. -/
theorem out4_entry (t : Fin cfg0.N) (p : Fin 2000) (q : Fin 96) :
    ((cfg0.win 4).blk t).view.emb (ix2 p q) = ix2 (rowOf t p) q := by
  obtain ⟨-, -, -, -, -, -, -, -, e8, e9⟩ := block_indices t
  funext a
  apply Fin.ext
  match a with
  | ⟨0, _⟩ => show win0_4.index t (0 : Fin 2) * 2000 + 1 * p.val = 2000 * t.val + p.val; omega
  | ⟨1, _⟩ => show win0_4.index t (1 : Fin 2) * 96 + 1 * q.val = q.val; omega

/-! ## What each point writes back -/

/-- What point t writes back to the first output is block t of the product of the row array with the first weight. -/
theorem writeback3_eq (c : Dev nD) (t : Fin cfg0.N) :
    (dat0 (F := Ideal) V c).flushed 3 t = ((cfg0.win 3).blk t).view.read (Elt Ideal) (Cert.Spec.mm (F := Ideal) (V c main_arg0) (V c main_arg1)) := by
  show (cfg0.win 3).cut (grid0.coords t) ((dat0 (F := Ideal) V c).after 3 t) = _
  rw [after0_3]
  unfold out0_3
  rw [View.canon_unit_zero zero_offsets]
  simp only [View.ld_unit_zero (S := S2000x96) zero_offsets, View.ld_unit_zero (S := S96x96) zero_offsets]
  funext j
  obtain ⟨p, q, rfl⟩ : ∃ (p : Fin 2000) (q : Fin 96), j = ix2 p q := ⟨j 0, j 1, eq_ix2 j⟩
  show k0_pay2 (F := Ideal) (iblk0 V c 0 t) (iblk0 V c 1 t) (ix2 p q)
    = Cert.Spec.mm (F := Ideal) (V c main_arg0) (V c main_arg1) (((cfg0.win 3).blk t).view.emb (ix2 p q))
  rw [out3_entry]
  refine (firstProduct_apply _ _ p q).trans ((Finset.sum_congr rfl fun k _ => ?_).trans (mm_apply _ _ (rowOf t p) q).symm)
  rw [rows_block V c t p k, weight1_block V c t k q]

/-- What point t writes back to the second output is block t of the product of the row array with the second weight. -/
theorem writeback4_eq (c : Dev nD) (t : Fin cfg0.N) :
    (dat0 (F := Ideal) V c).flushed 4 t = ((cfg0.win 4).blk t).view.read (Elt Ideal) (Cert.Spec.mm (F := Ideal) (V c main_arg0) (V c main_arg2)) := by
  show (cfg0.win 4).cut (grid0.coords t) ((dat0 (F := Ideal) V c).after 4 t) = _
  rw [after0_4]
  unfold out0_4
  rw [View.canon_unit_zero zero_offsets]
  simp only [View.ld_unit_zero (S := S2000x96) zero_offsets, View.ld_unit_zero (S := S96x96) zero_offsets]
  funext j
  obtain ⟨p, q, rfl⟩ : ∃ (p : Fin 2000) (q : Fin 96), j = ix2 p q := ⟨j 0, j 1, eq_ix2 j⟩
  show k0_pay3 (F := Ideal) (iblk0 V c 0 t) (iblk0 V c 2 t) (ix2 p q)
    = Cert.Spec.mm (F := Ideal) (V c main_arg0) (V c main_arg2) (((cfg0.win 4).blk t).view.emb (ix2 p q))
  rw [out4_entry]
  refine (secondProduct_apply _ _ p q).trans ((Finset.sum_congr rfl fun k _ => ?_).trans (mm_apply _ _ (rowOf t p) q).symm)
  rw [rows_block V c t p k, weight2_block V c t k q]

/-! ## The row blocks fill the arrays -/

/-- An entry of the first output array lies in point t's block iff each coordinate lies in the block's range. -/
theorem mem_rowBlock3 (t : Fin cfg0.N) (i : S50000x96.Idx) :
    i ∈ ((cfg0.win 3).blk t).view.set ↔ ∀ a : Fin 2, win0_3.index t a * S2000x96.size a ≤ (i a).val ∧ (i a).val < win0_3.index t a * S2000x96.size a + S2000x96.size a := by
  show i ∈ ((View.whole main_v0_0).slice (win0_3.rect t)).set ↔ _
  rw [View.set_slice_whole, Rect.mem_set_unit]
  exact Iff.rfl

/-- The same for the second output array. -/
theorem mem_rowBlock4 (t : Fin cfg0.N) (i : S50000x96.Idx) :
    i ∈ ((cfg0.win 4).blk t).view.set ↔ ∀ a : Fin 2, win0_4.index t a * S2000x96.size a ≤ (i a).val ∧ (i a).val < win0_4.index t a * S2000x96.size a + S2000x96.size a := by
  show i ∈ ((View.whole main_v0_1).slice (win0_4.rect t)).set ↔ _
  rw [View.set_slice_whole, Rect.mem_set_unit]
  exact Iff.rfl

/-- The 25 row blocks fill the first output array: row r lies in block r / 2000. -/
theorem rowBlocks_cover3 (i : S50000x96.Idx) : ∃ t : Fin cfg0.N, (cfg0.win 3).flush t = true ∧ i ∈ ((cfg0.win 3).blk t).view.set := by
  have h0 : (i 0).val < 50000 := ValueIdx.idx2_lt0 i
  have h1 : (i 1).val < 96 := ValueIdx.idx2_lt1 i
  have ht : (i 0).val / 2000 < 25 := by omega
  refine ⟨⟨(i 0).val / 2000, ht⟩, flush0_3 _, ?_⟩
  rw [mem_rowBlock3]
  obtain ⟨-, -, -, -, -, -, e6, e7, -⟩ := block_indices ⟨(i 0).val / 2000, ht⟩
  have e6' : win0_3.index ⟨(i 0).val / 2000, ht⟩ (0 : Fin 2) = (i 0).val / 2000 := e6
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    omega
  | ⟨1, _⟩ =>
    show win0_3.index ⟨(i 0).val / 2000, ht⟩ (1 : Fin 2) * 96 ≤ (i 1).val ∧ (i 1).val < win0_3.index ⟨(i 0).val / 2000, ht⟩ (1 : Fin 2) * 96 + 96
    omega

/-- The 25 row blocks fill the second output array. -/
theorem rowBlocks_cover4 (i : S50000x96.Idx) : ∃ t : Fin cfg0.N, (cfg0.win 4).flush t = true ∧ i ∈ ((cfg0.win 4).blk t).view.set := by
  have h0 : (i 0).val < 50000 := ValueIdx.idx2_lt0 i
  have h1 : (i 1).val < 96 := ValueIdx.idx2_lt1 i
  have ht : (i 0).val / 2000 < 25 := by omega
  refine ⟨⟨(i 0).val / 2000, ht⟩, flush0_4 _, ?_⟩
  rw [mem_rowBlock4]
  obtain ⟨-, -, -, -, -, -, -, -, e8, e9⟩ := block_indices ⟨(i 0).val / 2000, ht⟩
  have e8' : win0_4.index ⟨(i 0).val / 2000, ht⟩ (0 : Fin 2) = (i 0).val / 2000 := e8
  intro a
  match a with
  | ⟨0, _⟩ =>
    show win0_4.index ⟨(i 0).val / 2000, ht⟩ (0 : Fin 2) * 2000 ≤ (i 0).val ∧ (i 0).val < win0_4.index ⟨(i 0).val / 2000, ht⟩ (0 : Fin 2) * 2000 + 2000
    omega
  | ⟨1, _⟩ =>
    show win0_4.index ⟨(i 0).val / 2000, ht⟩ (1 : Fin 2) * 96 ≤ (i 1).val ∧ (i 1).val < win0_4.index ⟨(i 0).val / 2000, ht⟩ (1 : Fin 2) * 96 + 96
    omega

/-! ## The two output arrays after the region -/

theorem final0_3 (c : Dev nD) :
    (dat0 (F := Ideal) V c).arrAt 3 cfg0.N = Cert.Spec.mm (F := Ideal) (V c main_arg0) (V c main_arg1) :=
  (dat0 (F := Ideal) V c).arrAt_eq_of_cover 3 (Cert.Spec.mm (F := Ideal) (V c main_arg0) (V c main_arg1))
    (fun t _ => writeback3_eq V c t) rowBlocks_cover3

theorem final0_4 (c : Dev nD) :
    (dat0 (F := Ideal) V c).arrAt 4 cfg0.N = Cert.Spec.mm (F := Ideal) (V c main_arg0) (V c main_arg2) :=
  (dat0 (F := Ideal) V c).arrAt_eq_of_cover 4 (Cert.Spec.mm (F := Ideal) (V c main_arg0) (V c main_arg2))
    (fun t _ => writeback4_eq V c t) rowBlocks_cover4

end Cert.KernelIdeal.Region0

end
-- ==== Proof.Region1.lean ====
/-
  The second launch adds, block of 2000 rows by block, the aggregate, the node's own term and the bias row, and clips
  the sum at zero: entry `(n, j)` of its result is `max ((agg (n, j) + own (n, j)) + b (0, j)) 0`. Each of the
  twenty-five grid points reads row block `t` of the two 50000 x 96 arrays and the whole 1 x 96 bias array, and writes
  row block `t` of the result; row `n` lies in block `n / 2000`, so the blocks tile the array and it ends holding the
  clipped sum of the arrays as the launch found them.
-/
import proofs.«400572_j71305047048353_1_alg».proof.Proof.Spec
import proofs.«400572_j71305047048353_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The offsets of a whole-block access, as a function. -/
theorem zero_offsets : (![0, 0] : Fin 2 → Nat) = fun _ => 0 := funext fun a => by fin_cases a <;> rfl

/-- The clipped sum at an entry. -/
theorem combine_apply (agg own : FVec Ideal S50000x96 .f32) (brow : FVec Ideal S1x96 .f32) (r : Fin 50000) (q : Fin 96) :
    Cert.Spec.combine (F := Ideal) agg own brow (ix2 r q)
      = max ((agg (ix2 r q) + own (ix2 r q)) + brow (ix2 (0 : Fin 1) q)) (Ideal.ofBits .f32 0x00000000#32) := by
  unfold Cert.Spec.combine
  have hrow : broadcastInDim Cert.ReferenceIdeal.S50000x96 ![0, 1] Cert.ReferenceIdeal.Gen.bcast_S1x96_S50000x96_0_1 brow (ix2 r q)
      = brow (ix2 (0 : Fin 1) q) :=
    broadcastInDim_apply _ _ brow (ix2 r q) (ix2 (0 : Fin 1) q) (fun a => match a with
      | ⟨0, _⟩ => by show 0 = if (1 : Nat) = 1 then 0 else r.val; rw [if_pos rfl]
      | ⟨1, _⟩ => by show q.val = if (96 : Nat) = 1 then 0 else q.val; rw [if_neg (by decide)])
  have hzero : broadcastInDim Cert.ReferenceIdeal.S50000x96 ![] Cert.ReferenceIdeal.Gen.bcast_S_S50000x96
        (constant (F := Ideal) Cert.ReferenceIdeal.S_ .f32 0x00000000#32) (ix2 r q) = Ideal.ofBits .f32 0x00000000#32 :=
    broadcastInDim_apply _ _ _ (ix2 r q) (fun a => a.elim0) (fun a => a.elim0)
  show max ((agg (ix2 r q) + own (ix2 r q)) + _) _ = _
  rw [hrow, hzero]

/-- The body's stored block at an entry: the two row blocks added, the bias row added to every row, clipped at zero. -/
theorem pay_apply (b : Vec Ideal S1x96 .f32) (x y : Vec Ideal S2000x96 .f32) (p : Fin 2000) (q : Fin 96) :
    k1_pay1 (F := Ideal) b x y (ix2 p q)
      = max ((x (ix2 p q) + y (ix2 p q)) + b (ix2 (0 : Fin 1) q)) (Ideal.ofBits .f32 0x00000000#32) := by
  unfold k1_pay1
  simp only [shapeCast_self]
  show max ((x (ix2 p q) + y (ix2 p q)) + broadcastTo S2000x96 b broadcasts_S1x96_S2000x96 (ix2 p q)) (Ideal.ofBits .f32 0x00000000#32) = _
  rw [broadcastTo_1b_ab_apply]

/-- The index maps over the twenty-five points: the row-block windows sit at block `(t, 0)`, the bias window at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The first window's block at point `t` is rows `2000 t … 2000 t + 1999` of its array. -/
theorem agg_block (c : Dev nD) (t : Fin cfg1.N) (p : Fin 2000) (q : Fin 96) (r : Fin 50000) (hr : r.val = t.val * 2000 + p.val) :
    (iblk1 V c 0 t : Vec Ideal S2000x96 .f32) (ix2 p q) = (V c main_v7 : FVec Ideal S50000x96 .f32) (ix2 r q) := by
  obtain ⟨e0, e1, -⟩ := idx_facts t
  unfold iblk1
  rw [View.read_apply]
  show V c main_v7 _ = V c main_v7 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 96 + 1 * q.val = q.val; rw [e1]; omega

/-- The second window's block likewise. -/
theorem own_block (c : Dev nD) (t : Fin cfg1.N) (p : Fin 2000) (q : Fin 96) (r : Fin 50000) (hr : r.val = t.val * 2000 + p.val) :
    (iblk1 V c 1 t : Vec Ideal S2000x96 .f32) (ix2 p q) = (V c main_v0_1 : FVec Ideal S50000x96 .f32) (ix2 r q) := by
  obtain ⟨-, -, e0, e1, -⟩ := idx_facts t
  unfold iblk1
  rw [View.read_apply]
  show V c main_v0_1 _ = V c main_v0_1 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 96 + 1 * q.val = q.val; rw [e1]; omega

/-- The bias window's block is the whole one-row array at every point. -/
theorem bias_block (c : Dev nD) (t : Fin cfg1.N) (q : Fin 96) :
    (iblk1 V c 2 t : Vec Ideal S1x96 .f32) (ix2 (0 : Fin 1) q) = (V c main_v8 : FVec Ideal S1x96 .f32) (ix2 (0 : Fin 1) q) := by
  obtain ⟨-, -, -, -, e0, e1, -⟩ := idx_facts t
  unfold iblk1
  rw [View.read_apply]
  show V c main_v8 _ = V c main_v8 _
  congr 1
  funext a
  apply Fin.ext
  match a with
  | ⟨0, _⟩ => show win1_2.index t (0 : Fin 2) * 1 + 1 * 0 = 0; rw [e0]
  | ⟨1, _⟩ => show win1_2.index t (1 : Fin 2) * 96 + 1 * q.val = q.val; rw [e1]; omega

/-- What point `t` writes back is block `t` of the clipped sum of the three arrays. -/
theorem flushed_eq (c : Dev nD) (t : Fin cfg1.N) :
    (dat1 (F := Ideal) V c).flushed 3 t
      = ((cfg1.win 3).blk t).view.read (Elt Ideal) (Cert.Spec.combine (F := Ideal) (V c main_v7) (V c main_v0_1) (V c main_v8)) := by
  show (cfg1.win 3).cut (grid1.coords t) ((dat1 (F := Ideal) V c).after 3 t) = _
  rw [after1_3]
  unfold out1_3
  rw [View.canon_unit_zero zero_offsets]
  simp only [View.ld_unit_zero (S := S2000x96) zero_offsets, View.ld_unit_zero (S := S1x96) zero_offsets]
  obtain ⟨-, -, -, -, -, -, e0, e1⟩ := idx_facts t
  have ht : t.val < 25 := t.isLt
  funext j
  obtain ⟨p, q, rfl⟩ : ∃ (p : Fin 2000) (q : Fin 96), j = ix2 p q := ⟨j 0, j 1, eq_ix2 j⟩
  have hp : p.val < 2000 := p.isLt
  refine (pay_apply (iblk1 V c 2 t) (iblk1 V c 0 t) (iblk1 V c 1 t) p q).trans ?_
  show _ = Cert.Spec.combine (F := Ideal) (V c main_v7) (V c main_v0_1) (V c main_v8) (((cfg1.win 3).blk t).view.emb (ix2 p q))
  have hemb : ((cfg1.win 3).blk t).view.emb (ix2 p q) = (ix2 (⟨t.val * 2000 + p.val, by omega⟩ : Fin 50000) q : S50000x96.Idx) := by
    funext a
    apply Fin.ext
    match a with
    | ⟨0, _⟩ => show win1_3.index t (0 : Fin 2) * 2000 + 1 * p.val = t.val * 2000 + p.val; rw [e0]; omega
    | ⟨1, _⟩ => show win1_3.index t (1 : Fin 2) * 96 + 1 * q.val = q.val; rw [e1]; omega
  rw [hemb, combine_apply, agg_block V c t p q ⟨t.val * 2000 + p.val, by omega⟩ rfl, own_block V c t p q ⟨t.val * 2000 + p.val, by omega⟩ rfl,
    bias_block V c t q]

/-- An entry of the array is in point `t`'s block iff each coordinate is in the block's range on its axis. -/
theorem mem_blk (t : Fin cfg1.N) (i : S50000x96.Idx) :
    i ∈ ((cfg1.win 3).blk t).view.set
      ↔ ∀ a : Fin 2, win1_3.index t a * S2000x96.size a ≤ (i a).val ∧ (i a).val < win1_3.index t a * S2000x96.size a + S2000x96.size a := by
  show i ∈ ((View.whole main_v9).slice (win1_3.rect t)).set ↔ _
  rw [View.set_slice_whole, Rect.mem_set_unit]
  exact Iff.rfl

/-- Every row lies in the block of the point that is its quotient by 2000. -/
theorem covered (i : S50000x96.Idx) :
    ∃ t : Fin cfg1.N, (cfg1.win 3).flush t = true ∧ i ∈ ((cfg1.win 3).blk t).view.set := by
  have h0 : (i 0).val < 50000 := (i 0).isLt
  have h1 : (i 1).val < 96 := (i 1).isLt
  have hq : (i 0).val / 2000 < 25 := by omega
  obtain ⟨-, -, -, -, -, -, e0, e1⟩ := idx_facts ⟨(i 0).val / 2000, hq⟩
  refine ⟨⟨(i 0).val / 2000, hq⟩, flush1_3 _, ?_⟩
  rw [mem_blk]
  intro a
  match a with
  | ⟨0, _⟩ =>
    show win1_3.index ⟨(i 0).val / 2000, hq⟩ (0 : Fin 2) * 2000 ≤ (i 0).val
      ∧ (i 0).val < win1_3.index ⟨(i 0).val / 2000, hq⟩ (0 : Fin 2) * 2000 + 2000
    rw [e0]
    show (i 0).val / 2000 * 2000 ≤ (i 0).val ∧ (i 0).val < (i 0).val / 2000 * 2000 + 2000
    omega
  | ⟨1, _⟩ =>
    show win1_3.index ⟨(i 0).val / 2000, hq⟩ (1 : Fin 2) * 96 ≤ (i 1).val
      ∧ (i 1).val < win1_3.index ⟨(i 0).val / 2000, hq⟩ (1 : Fin 2) * 96 + 96
    rw [e1]
    omega

/-- The blocks tile the array, so it ends holding the clipped sum of the three arrays as the region found them. -/
theorem final1_3 (c : Dev nD) :
    (dat1 (F := Ideal) V c).arrAt 3 cfg1.N = Cert.Spec.combine (F := Ideal) (V c main_v7) (V c main_v0_1) (V c main_v8) :=
  (dat1 (F := Ideal) V c).arrAt_eq_of_cover 3 _ (fun t _ => flushed_eq V c t) fun i => covered i

end Cert.KernelIdeal.Region1

end
-- ==== Proof.Region2.lean ====
/-
  A matrix-product region: each of the 25 grid points multiplies a block of 2000 rows of a 50000 by 96 array by two
  96 by 96 weights, from a zero accumulator, and writes the two products back as the same rows of two output arrays.
  Entry (p, q) of a block's product is the sum over k of the block's entry (p, k) times the weight's entry (k, q); row p
  of block t is row 2000·t + p of the array, and the weight windows sit at block (0, 0) at every point. So each output
  array ends as the whole-array product of the row array with its weight.
-/
import proofs.«400572_j71305047048353_1_alg».proof.Proof.Spec
import proofs.«400572_j71305047048353_1_alg».proof.Proof.Gen.KernelIdeal.Frame
import proofs.«400572_j71305047048353_1_alg».proof.Proof.Gen.ReferenceIdeal.Read
import Idealize.ShloMosaic.Lib.Pipeline.Value
import Idealize.ShloMosaic.Lib.ValueIdx
import Idealize.ShloMosaic.PureOps.Ideal.Laws

noncomputable section

namespace Cert.KernelIdeal.Region2

open Cert.KernelIdeal Cert.KernelIdeal.Gen
open Idealize.ShloMosaic Idealize.ShloMosaic.TcCoe Idealize.SL.Sem
open Idealize.ShloMosaic.Pipeline (Dat)
open Idealize.ShloMosaic.ValueIdx (ix2 eq_ix2)

variable (V : (c : Dev nD) → (b : Ref sig .tc) → Buf (Elt Ideal) ((c : Thread nD τ).loc b))

/-! ## The block product at an entry -/

/-- The product keeps the block's row axis … -/
theorem lhs_axis0 (i : S2000x96.Idx) (q : dot_S2000x96_S96x96_S2000x96_1_0_0_1_n_n.contr.Idx) :
    (dot_S2000x96_S96x96_S2000x96_1_0_0_1_n_n.lhsIdx i q 0).val = (i 0).val := by
  unfold DotDims.lhsIdx
  rw [dif_neg (show ¬(0 : Fin S2000x96.rank) ∈ dot_S2000x96_S96x96_S2000x96_1_0_0_1_n_n.lhsBatch by decide), dif_pos (show (0 : Fin S2000x96.rank) ∈ dot_S2000x96_S96x96_S2000x96_1_0_0_1_n_n.lhsNonContracting by decide)]
  rfl
/-- … contracts the block's column axis … -/
theorem lhs_axis1 (i : S2000x96.Idx) (q : dot_S2000x96_S96x96_S2000x96_1_0_0_1_n_n.contr.Idx) :
    (dot_S2000x96_S96x96_S2000x96_1_0_0_1_n_n.lhsIdx i q 1).val = (q ⟨0, by decide⟩).val :=
  dot_S2000x96_S96x96_S2000x96_1_0_0_1_n_n.lhsIdx_val_of_single rfl i q
/-- … against the weight's row axis … -/
theorem rhs_axis0 (i : S2000x96.Idx) (q : dot_S2000x96_S96x96_S2000x96_1_0_0_1_n_n.contr.Idx) :
    (dot_S2000x96_S96x96_S2000x96_1_0_0_1_n_n.rhsIdx i q 0).val = (q ⟨0, by decide⟩).val :=
  dot_S2000x96_S96x96_S2000x96_1_0_0_1_n_n.rhsIdx_val_of_single rfl i q
/-- … and keeps the weight's column axis. -/
theorem rhs_axis1 (i : S2000x96.Idx) (q : dot_S2000x96_S96x96_S2000x96_1_0_0_1_n_n.contr.Idx) :
    (dot_S2000x96_S96x96_S2000x96_1_0_0_1_n_n.rhsIdx i q 1).val = (i 1).val := by
  unfold DotDims.rhsIdx
  rw [dif_neg (show ¬(1 : Fin S96x96.rank) ∈ dot_S2000x96_S96x96_S2000x96_1_0_0_1_n_n.rhsBatch by decide), dif_pos (show (1 : Fin S96x96.rank) ∈ dot_S2000x96_S96x96_S2000x96_1_0_0_1_n_n.rhsNonContracting by decide)]
  rfl

/-- One entry of the product of a 2000-row block with a 96 by 96 weight, from a zero accumulator:
    the sum over k of the block's entry (p, k) times the weight's entry (k, q). -/
theorem blockProduct_apply (x : FVec Ideal S2000x96 .f32) (w : FVec Ideal S96x96 .f32) (p : Fin 2000) (q : Fin 96) :
    matmul (F := Ideal) dot_S2000x96_S96x96_S2000x96_1_0_0_1_n_n none x w (constant (F := Ideal) S2000x96 .f32 0x00000000#32) (ix2 p q)
      = ∑ k : Fin 96, x (ix2 p k) * w (ix2 k q) := by
  refine (Ideal.matmul_constant_zero_apply dot_S2000x96_S96x96_S2000x96_1_0_0_1_n_n none x w (ix2 p q)).trans ?_
  rw [← Equiv.sum_comp (ValueIdx.contrEquiv1 dot_S2000x96_S96x96_S2000x96_1_0_0_1_n_n 96 rfl rfl).symm]
  refine Finset.sum_congr rfl fun k _ => ?_
  have hk := ValueIdx.contrEquiv1_symm_val dot_S2000x96_S96x96_S2000x96_1_0_0_1_n_n 96 rfl rfl k
  have el : dot_S2000x96_S96x96_S2000x96_1_0_0_1_n_n.lhsIdx (ix2 p q) ((ValueIdx.contrEquiv1 dot_S2000x96_S96x96_S2000x96_1_0_0_1_n_n 96 rfl rfl).symm k) = ix2 p k := funext fun a => Fin.ext (by
    match a with
    | ⟨0, _⟩ => exact lhs_axis0 _ _
    | ⟨1, _⟩ => exact (lhs_axis1 _ _).trans hk)
  have er : dot_S2000x96_S96x96_S2000x96_1_0_0_1_n_n.rhsIdx (ix2 p q) ((ValueIdx.contrEquiv1 dot_S2000x96_S96x96_S2000x96_1_0_0_1_n_n 96 rfl rfl).symm k) = ix2 k q := funext fun a => Fin.ext (by
    match a with
    | ⟨0, _⟩ => exact (rhs_axis0 _ _).trans hk
    | ⟨1, _⟩ => exact rhs_axis1 _ _)
  rw [el, er]

/-- The body's two stored values are that product of the loaded block with each loaded weight: the reshape of the
    block to its own shape is the identity, and the casts to bf16 change nothing on extended reals. -/
theorem firstProduct_apply (x : Vec Ideal S2000x96 .f32) (w : Vec Ideal S96x96 .f32) (p : Fin 2000) (q : Fin 96) :
    k2_pay2 (F := Ideal) x w (ix2 p q) = ∑ k : Fin 96, x (ix2 p k) * w (ix2 k q) := by
  show matmul (F := Ideal) dot_S2000x96_S96x96_S2000x96_1_0_0_1_n_n none (shapeCast S2000x96 x shapeCasts_S2000x96_S2000x96) w
    (constant (F := Ideal) S2000x96 .f32 0x00000000#32) (ix2 p q) = _
  rw [shapeCast_self]
  exact blockProduct_apply x w p q
theorem secondProduct_apply (x : Vec Ideal S2000x96 .f32) (w : Vec Ideal S96x96 .f32) (p : Fin 2000) (q : Fin 96) :
    k2_pay3 (F := Ideal) x w (ix2 p q) = ∑ k : Fin 96, x (ix2 p k) * w (ix2 k q) := by
  show matmul (F := Ideal) dot_S2000x96_S96x96_S2000x96_1_0_0_1_n_n none (shapeCast S2000x96 x shapeCasts_S2000x96_S2000x96) w
    (constant (F := Ideal) S2000x96 .f32 0x00000000#32) (ix2 p q) = _
  rw [shapeCast_self]
  exact blockProduct_apply x w p q

/-! ## The whole-array product at an entry -/

/-- One entry of the whole-array product: the sum over k of x (n, k) times w (k, j). -/
theorem mm_apply (x : FVec Ideal Cert.ReferenceIdeal.S50000x96 .f32) (w : FVec Ideal Cert.ReferenceIdeal.S96x96 .f32) (n : Fin 50000) (j : Fin 96) :
    Cert.Spec.mm (F := Ideal) x w (ix2 n j) = ∑ k : Fin 96, x (ix2 n k) * w (ix2 k j) := by
  have e : Cert.Spec.mm (F := Ideal) x w = Cert.ReferenceIdeal.Read.val_main_v0 (F := Ideal) x w := rfl
  rw [e, Cert.ReferenceIdeal.Read.val_main_v0_apply]
  refine Finset.sum_congr rfl fun k _ => ?_
  have el : Cert.ReferenceIdeal.Read.lidx_main_v0 (ix2 n j) k = ix2 n k := funext fun a => Fin.ext (by match a with | ⟨0, _⟩ => rfl | ⟨1, _⟩ => rfl)
  have er : Cert.ReferenceIdeal.Read.ridx_main_v0 (ix2 n j) k = ix2 k j := funext fun a => Fin.ext (by match a with | ⟨0, _⟩ => rfl | ⟨1, _⟩ => rfl)
  rw [el, er]

/-! ## Blocks as rows of the arrays -/

theorem zero_offsets : (![0, 0] : Fin 2 → Nat) = fun _ => 0 := funext fun a => by fin_cases a <;> rfl

/-- The index maps over the 25 points: the three row windows sit at block (t, 0), the two weight windows at block (0, 0). -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Row p of block t is row 2000·t + p of the array. -/
def rowOf (t : Fin cfg2.N) (p : Fin 2000) : Fin 50000 :=
  ⟨2000 * t.val + p.val, by have ht : t.val < 25 := t.isLt; have hp := p.isLt; omega⟩

/-- The row window's block at point t holds rows 2000·t … 2000·t + 1999 of the row array. -/
theorem rows_block (c : Dev nD) (t : Fin cfg2.N) (p : Fin 2000) (k : Fin 96) :
    (iblk2 V c 0 t : Vec Ideal S2000x96 .f32) (ix2 p k) = (V c main_v9 : S50000x96.Idx → Elt Ideal .f32) (ix2 (rowOf t p) k) := by
  obtain ⟨e0, e1, -⟩ := block_indices t
  unfold iblk2
  rw [View.read_apply]
  show V c main_v9 _ = V c main_v9 _
  congr 1
  funext a
  apply Fin.ext
  match a with
  | ⟨0, _⟩ => show win2_0.index t (0 : Fin 2) * 2000 + 1 * p.val = 2000 * t.val + p.val; omega
  | ⟨1, _⟩ => show win2_0.index t (1 : Fin 2) * 96 + 1 * k.val = k.val; omega

/-- The first weight window's block at every point is the whole weight. -/
theorem weight1_block (c : Dev nD) (t : Fin cfg2.N) (k q : Fin 96) :
    (iblk2 V c 1 t : Vec Ideal S96x96 .f32) (ix2 k q) = (V c main_arg4 : S96x96.Idx → Elt Ideal .f32) (ix2 k q) := by
  obtain ⟨-, -, e2, e3, -⟩ := block_indices t
  unfold iblk2
  rw [View.read_apply]
  show V c main_arg4 _ = V c main_arg4 _
  congr 1
  funext a
  apply Fin.ext
  match a with
  | ⟨0, _⟩ => show win2_1.index t (0 : Fin 2) * 96 + 1 * k.val = k.val; omega
  | ⟨1, _⟩ => show win2_1.index t (1 : Fin 2) * 96 + 1 * q.val = q.val; omega

/-- The second weight window's block at every point is the whole weight. -/
theorem weight2_block (c : Dev nD) (t : Fin cfg2.N) (k q : Fin 96) :
    (iblk2 V c 2 t : Vec Ideal S96x96 .f32) (ix2 k q) = (V c main_arg5 : S96x96.Idx → Elt Ideal .f32) (ix2 k q) := by
  obtain ⟨-, -, -, -, e4, e5, -⟩ := block_indices t
  unfold iblk2
  rw [View.read_apply]
  show V c main_arg5 _ = V c main_arg5 _
  congr 1
  funext a
  apply Fin.ext
  match a with
  | ⟨0, _⟩ => show win2_2.index t (0 : Fin 2) * 96 + 1 * k.val = k.val; omega
  | ⟨1, _⟩ => show win2_2.index t (1 : Fin 2) * 96 + 1 * q.val = q.val; omega

/-- Entry (p, q) of the first output window's block at point t is entry (2000·t + p, q) of its array. -/
theorem out3_entry (t : Fin cfg2.N) (p : Fin 2000) (q : Fin 96) :
    ((cfg2.win 3).blk t).view.emb (ix2 p q) = ix2 (rowOf t p) q := by
  obtain ⟨-, -, -, -, -, -, e6, e7, -⟩ := block_indices t
  funext a
  apply Fin.ext
  match a with
  | ⟨0, _⟩ => show win2_3.index t (0 : Fin 2) * 2000 + 1 * p.val = 2000 * t.val + p.val; omega
  | ⟨1, _⟩ => show win2_3.index t (1 : Fin 2) * 96 + 1 * q.val = q.val; omega

/-- Entry (p, q) of the second output window's block at point t is entry (2000·t + p, q) of its array. -/
theorem out4_entry (t : Fin cfg2.N) (p : Fin 2000) (q : Fin 96) :
    ((cfg2.win 4).blk t).view.emb (ix2 p q) = ix2 (rowOf t p) q := by
  obtain ⟨-, -, -, -, -, -, -, -, e8, e9⟩ := block_indices t
  funext a
  apply Fin.ext
  match a with
  | ⟨0, _⟩ => show win2_4.index t (0 : Fin 2) * 2000 + 1 * p.val = 2000 * t.val + p.val; omega
  | ⟨1, _⟩ => show win2_4.index t (1 : Fin 2) * 96 + 1 * q.val = q.val; omega

/-! ## What each point writes back -/

/-- What point t writes back to the first output is block t of the product of the row array with the first weight. -/
theorem writeback3_eq (c : Dev nD) (t : Fin cfg2.N) :
    (dat2 (F := Ideal) V c).flushed 3 t = ((cfg2.win 3).blk t).view.read (Elt Ideal) (Cert.Spec.mm (F := Ideal) (V c main_v9) (V c main_arg4)) := by
  show (cfg2.win 3).cut (grid2.coords t) ((dat2 (F := Ideal) V c).after 3 t) = _
  rw [after2_3]
  unfold out2_3
  rw [View.canon_unit_zero zero_offsets]
  simp only [View.ld_unit_zero (S := S2000x96) zero_offsets, View.ld_unit_zero (S := S96x96) zero_offsets]
  funext j
  obtain ⟨p, q, rfl⟩ : ∃ (p : Fin 2000) (q : Fin 96), j = ix2 p q := ⟨j 0, j 1, eq_ix2 j⟩
  show k2_pay2 (F := Ideal) (iblk2 V c 0 t) (iblk2 V c 1 t) (ix2 p q)
    = Cert.Spec.mm (F := Ideal) (V c main_v9) (V c main_arg4) (((cfg2.win 3).blk t).view.emb (ix2 p q))
  rw [out3_entry]
  refine (firstProduct_apply _ _ p q).trans ((Finset.sum_congr rfl fun k _ => ?_).trans (mm_apply _ _ (rowOf t p) q).symm)
  rw [rows_block V c t p k, weight1_block V c t k q]

/-- What point t writes back to the second output is block t of the product of the row array with the second weight. -/
theorem writeback4_eq (c : Dev nD) (t : Fin cfg2.N) :
    (dat2 (F := Ideal) V c).flushed 4 t = ((cfg2.win 4).blk t).view.read (Elt Ideal) (Cert.Spec.mm (F := Ideal) (V c main_v9) (V c main_arg5)) := by
  show (cfg2.win 4).cut (grid2.coords t) ((dat2 (F := Ideal) V c).after 4 t) = _
  rw [after2_4]
  unfold out2_4
  rw [View.canon_unit_zero zero_offsets]
  simp only [View.ld_unit_zero (S := S2000x96) zero_offsets, View.ld_unit_zero (S := S96x96) zero_offsets]
  funext j
  obtain ⟨p, q, rfl⟩ : ∃ (p : Fin 2000) (q : Fin 96), j = ix2 p q := ⟨j 0, j 1, eq_ix2 j⟩
  show k2_pay3 (F := Ideal) (iblk2 V c 0 t) (iblk2 V c 2 t) (ix2 p q)
    = Cert.Spec.mm (F := Ideal) (V c main_v9) (V c main_arg5) (((cfg2.win 4).blk t).view.emb (ix2 p q))
  rw [out4_entry]
  refine (secondProduct_apply _ _ p q).trans ((Finset.sum_congr rfl fun k _ => ?_).trans (mm_apply _ _ (rowOf t p) q).symm)
  rw [rows_block V c t p k, weight2_block V c t k q]

/-! ## The row blocks fill the arrays -/

/-- An entry of the first output array lies in point t's block iff each coordinate lies in the block's range. -/
theorem mem_rowBlock3 (t : Fin cfg2.N) (i : S50000x96.Idx) :
    i ∈ ((cfg2.win 3).blk t).view.set ↔ ∀ a : Fin 2, win2_3.index t a * S2000x96.size a ≤ (i a).val ∧ (i a).val < win2_3.index t a * S2000x96.size a + S2000x96.size a := by
  show i ∈ ((View.whole main_v10_0).slice (win2_3.rect t)).set ↔ _
  rw [View.set_slice_whole, Rect.mem_set_unit]
  exact Iff.rfl

/-- The same for the second output array. -/
theorem mem_rowBlock4 (t : Fin cfg2.N) (i : S50000x96.Idx) :
    i ∈ ((cfg2.win 4).blk t).view.set ↔ ∀ a : Fin 2, win2_4.index t a * S2000x96.size a ≤ (i a).val ∧ (i a).val < win2_4.index t a * S2000x96.size a + S2000x96.size a := by
  show i ∈ ((View.whole main_v10_1).slice (win2_4.rect t)).set ↔ _
  rw [View.set_slice_whole, Rect.mem_set_unit]
  exact Iff.rfl

/-- The 25 row blocks fill the first output array: row r lies in block r / 2000. -/
theorem rowBlocks_cover3 (i : S50000x96.Idx) : ∃ t : Fin cfg2.N, (cfg2.win 3).flush t = true ∧ i ∈ ((cfg2.win 3).blk t).view.set := by
  have h0 : (i 0).val < 50000 := ValueIdx.idx2_lt0 i
  have h1 : (i 1).val < 96 := ValueIdx.idx2_lt1 i
  have ht : (i 0).val / 2000 < 25 := by omega
  refine ⟨⟨(i 0).val / 2000, ht⟩, flush2_3 _, ?_⟩
  rw [mem_rowBlock3]
  obtain ⟨-, -, -, -, -, -, e6, e7, -⟩ := block_indices ⟨(i 0).val / 2000, ht⟩
  have e6' : win2_3.index ⟨(i 0).val / 2000, ht⟩ (0 : Fin 2) = (i 0).val / 2000 := e6
  intro a
  match a with
  | ⟨0, _⟩ =>
    show win2_3.index ⟨(i 0).val / 2000, ht⟩ (0 : Fin 2) * 2000 ≤ (i 0).val ∧ (i 0).val < win2_3.index ⟨(i 0).val / 2000, ht⟩ (0 : Fin 2) * 2000 + 2000
    omega
  | ⟨1, _⟩ =>
    show win2_3.index ⟨(i 0).val / 2000, ht⟩ (1 : Fin 2) * 96 ≤ (i 1).val ∧ (i 1).val < win2_3.index ⟨(i 0).val / 2000, ht⟩ (1 : Fin 2) * 96 + 96
    omega

/-- The 25 row blocks fill the second output array. -/
theorem rowBlocks_cover4 (i : S50000x96.Idx) : ∃ t : Fin cfg2.N, (cfg2.win 4).flush t = true ∧ i ∈ ((cfg2.win 4).blk t).view.set := by
  have h0 : (i 0).val < 50000 := ValueIdx.idx2_lt0 i
  have h1 : (i 1).val < 96 := ValueIdx.idx2_lt1 i
  have ht : (i 0).val / 2000 < 25 := by omega
  refine ⟨⟨(i 0).val / 2000, ht⟩, flush2_4 _, ?_⟩
  rw [mem_rowBlock4]
  obtain ⟨-, -, -, -, -, -, -, -, e8, e9⟩ := block_indices ⟨(i 0).val / 2000, ht⟩
  have e8' : win2_4.index ⟨(i 0).val / 2000, ht⟩ (0 : Fin 2) = (i 0).val / 2000 := e8
  intro a
  match a with
  | ⟨0, _⟩ =>
    show win2_4.index ⟨(i 0).val / 2000, ht⟩ (0 : Fin 2) * 2000 ≤ (i 0).val ∧ (i 0).val < win2_4.index ⟨(i 0).val / 2000, ht⟩ (0 : Fin 2) * 2000 + 2000
    omega
  | ⟨1, _⟩ =>
    show win2_4.index ⟨(i 0).val / 2000, ht⟩ (1 : Fin 2) * 96 ≤ (i 1).val ∧ (i 1).val < win2_4.index ⟨(i 0).val / 2000, ht⟩ (1 : Fin 2) * 96 + 96
    omega

/-! ## The two output arrays after the region -/

theorem final2_3 (c : Dev nD) :
    (dat2 (F := Ideal) V c).arrAt 3 cfg2.N = Cert.Spec.mm (F := Ideal) (V c main_v9) (V c main_arg4) :=
  (dat2 (F := Ideal) V c).arrAt_eq_of_cover 3 (Cert.Spec.mm (F := Ideal) (V c main_v9) (V c main_arg4))
    (fun t _ => writeback3_eq V c t) rowBlocks_cover3

theorem final2_4 (c : Dev nD) :
    (dat2 (F := Ideal) V c).arrAt 4 cfg2.N = Cert.Spec.mm (F := Ideal) (V c main_v9) (V c main_arg5) :=
  (dat2 (F := Ideal) V c).arrAt_eq_of_cover 4 (Cert.Spec.mm (F := Ideal) (V c main_v9) (V c main_arg5))
    (fun t _ => writeback4_eq V c t) rowBlocks_cover4

end Cert.KernelIdeal.Region2

end
-- ==== Proof.Region3.lean ====
/-
  The last launch averages the input with the second round's clipped sum, block of 2000 rows by block: entry `(n, j)`
  of its result is `(x (n, j) + max ((agg (n, j) + own (n, j)) + b (0, j)) 0) · 1/2`. Each of the twenty-five grid
  points reads row block `t` of the three 50000 x 96 arrays and the whole 1 x 96 bias array, and writes row block `t`
  of the result; row `n` lies in block `n / 2000`, so the blocks tile the array and it ends holding that average
  of the arrays as the launch found them.
-/
import proofs.«400572_j71305047048353_1_alg».proof.Proof.Spec
import proofs.«400572_j71305047048353_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region3

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The offsets of a whole-block access, as a function. -/
theorem zero_offsets : (![0, 0] : Fin 2 → Nat) = fun _ => 0 := funext fun a => by fin_cases a <;> rfl

/-- The average of the input with the clipped sum, at an entry. -/
theorem finish_combine_apply (x agg own : FVec Ideal S50000x96 .f32) (brow : FVec Ideal S1x96 .f32) (r : Fin 50000) (q : Fin 96) :
    Cert.Spec.finish (F := Ideal) x (Cert.Spec.combine (F := Ideal) agg own brow) (ix2 r q)
      = (x (ix2 r q) + max ((agg (ix2 r q) + own (ix2 r q)) + brow (ix2 (0 : Fin 1) q)) (Ideal.ofBits .f32 0x00000000#32))
          * Ideal.ofBits .f32 0x3F000000#32 := by
  unfold Cert.Spec.finish Cert.Spec.combine
  have hrow : broadcastInDim Cert.ReferenceIdeal.S50000x96 ![0, 1] Cert.ReferenceIdeal.Gen.bcast_S1x96_S50000x96_0_1 brow (ix2 r q)
      = brow (ix2 (0 : Fin 1) q) :=
    broadcastInDim_apply _ _ brow (ix2 r q) (ix2 (0 : Fin 1) q) (fun a => match a with
      | ⟨0, _⟩ => by show 0 = if (1 : Nat) = 1 then 0 else r.val; rw [if_pos rfl]
      | ⟨1, _⟩ => by show q.val = if (96 : Nat) = 1 then 0 else q.val; rw [if_neg (by decide)])
  have hzero : broadcastInDim Cert.ReferenceIdeal.S50000x96 ![] Cert.ReferenceIdeal.Gen.bcast_S_S50000x96
        (constant (F := Ideal) Cert.ReferenceIdeal.S_ .f32 0x00000000#32) (ix2 r q) = Ideal.ofBits .f32 0x00000000#32 :=
    broadcastInDim_apply _ _ _ (ix2 r q) (fun a => a.elim0) (fun a => a.elim0)
  have hhalf : broadcastInDim Cert.ReferenceIdeal.S50000x96 ![] Cert.ReferenceIdeal.Gen.bcast_S_S50000x96
        (constant (F := Ideal) Cert.ReferenceIdeal.S_ .f32 0x3F000000#32) (ix2 r q) = Ideal.ofBits .f32 0x3F000000#32 :=
    broadcastInDim_apply _ _ _ (ix2 r q) (fun a => a.elim0) (fun a => a.elim0)
  show (x (ix2 r q) + max ((agg (ix2 r q) + own (ix2 r q)) + _) _) * _ = _
  rw [hrow, hzero, hhalf]

/-- The body's stored block at an entry: the input block added to the clipped sum of the two row blocks and the bias row, halved. -/
theorem pay_apply (b : Vec Ideal S1x96 .f32) (y z x : Vec Ideal S2000x96 .f32) (p : Fin 2000) (q : Fin 96) :
    k3_pay1 (F := Ideal) b y z x (ix2 p q)
      = (x (ix2 p q) + max ((y (ix2 p q) + z (ix2 p q)) + b (ix2 (0 : Fin 1) q)) (Ideal.ofBits .f32 0x00000000#32))
          * Ideal.ofBits .f32 0x3F000000#32 := by
  unfold k3_pay1
  simp only [shapeCast_self]
  show (x (ix2 p q) + max ((y (ix2 p q) + z (ix2 p q)) + broadcastTo S2000x96 b broadcasts_S1x96_S2000x96 (ix2 p q))
      (Ideal.ofBits .f32 0x00000000#32)) * Ideal.ofBits .f32 0x3F000000#32 = _
  rw [broadcastTo_1b_ab_apply]

/-- The index maps over the twenty-five points: the row-block windows sit at block `(t, 0)`, the bias window at block `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The input window's block at point `t` is rows `2000 t … 2000 t + 1999` of the input. -/
theorem input_block (c : Dev nD) (t : Fin cfg3.N) (p : Fin 2000) (q : Fin 96) (r : Fin 50000) (hr : r.val = t.val * 2000 + p.val) :
    (iblk3 V c 0 t : Vec Ideal S2000x96 .f32) (ix2 p q) = (V c main_arg0 : FVec Ideal S50000x96 .f32) (ix2 r q) := by
  obtain ⟨e0, e1, -⟩ := idx_facts t
  unfold iblk3
  rw [View.read_apply]
  show V c main_arg0 _ = V c main_arg0 _
  congr 1
  funext a
  apply Fin.ext
  match a with
  | ⟨0, _⟩ => show win3_0.index t (0 : Fin 2) * 2000 + 1 * p.val = r.val; rw [e0, hr]; omega
  | ⟨1, _⟩ => show win3_0.index t (1 : Fin 2) * 96 + 1 * q.val = q.val; rw [e1]; omega

/-- The aggregate's window likewise. -/
theorem agg_block (c : Dev nD) (t : Fin cfg3.N) (p : Fin 2000) (q : Fin 96) (r : Fin 50000) (hr : r.val = t.val * 2000 + p.val) :
    (iblk3 V c 1 t : Vec Ideal S2000x96 .f32) (ix2 p q) = (V c main_v17 : FVec Ideal S50000x96 .f32) (ix2 r q) := by
  obtain ⟨-, -, e0, e1, -⟩ := idx_facts t
  unfold iblk3
  rw [View.read_apply]
  show V c main_v17 _ = V c main_v17 _
  congr 1
  funext a
  apply Fin.ext
  match a with
  | ⟨0, _⟩ => show win3_1.index t (0 : Fin 2) * 2000 + 1 * p.val = r.val; rw [e0, hr]; omega
  | ⟨1, _⟩ => show win3_1.index t (1 : Fin 2) * 96 + 1 * q.val = q.val; rw [e1]; omega

/-- The own term's window likewise. -/
theorem own_block (c : Dev nD) (t : Fin cfg3.N) (p : Fin 2000) (q : Fin 96) (r : Fin 50000) (hr : r.val = t.val * 2000 + p.val) :
    (iblk3 V c 2 t : Vec Ideal S2000x96 .f32) (ix2 p q) = (V c main_v10_1 : FVec Ideal S50000x96 .f32) (ix2 r q) := by
  obtain ⟨-, -, -, -, e0, e1, -⟩ := idx_facts t
  unfold iblk3
  rw [View.read_apply]
  show V c main_v10_1 _ = V c main_v10_1 _
  congr 1
  funext a
  apply Fin.ext
  match a with
  | ⟨0, _⟩ => show win3_2.index t (0 : Fin 2) * 2000 + 1 * p.val = r.val; rw [e0, hr]; omega
  | ⟨1, _⟩ => show win3_2.index t (1 : Fin 2) * 96 + 1 * q.val = q.val; rw [e1]; omega

/-- The bias window's block is the whole one-row array at every point. -/
theorem bias_block (c : Dev nD) (t : Fin cfg3.N) (q : Fin 96) :
    (iblk3 V c 3 t : Vec Ideal S1x96 .f32) (ix2 (0 : Fin 1) q) = (V c main_v18 : FVec Ideal S1x96 .f32) (ix2 (0 : Fin 1) q) := by
  obtain ⟨-, -, -, -, -, -, e0, e1, -⟩ := idx_facts t
  unfold iblk3
  rw [View.read_apply]
  show V c main_v18 _ = V c main_v18 _
  congr 1
  funext a
  apply Fin.ext
  match a with
  | ⟨0, _⟩ => show win3_3.index t (0 : Fin 2) * 1 + 1 * 0 = 0; rw [e0]
  | ⟨1, _⟩ => show win3_3.index t (1 : Fin 2) * 96 + 1 * q.val = q.val; rw [e1]; omega

/-- What point `t` writes back is block `t` of the average of the input with the clipped sum. -/
theorem flushed_eq (c : Dev nD) (t : Fin cfg3.N) :
    (dat3 (F := Ideal) V c).flushed 4 t
      = ((cfg3.win 4).blk t).view.read (Elt Ideal)
          (Cert.Spec.finish (F := Ideal) (V c main_arg0) (Cert.Spec.combine (F := Ideal) (V c main_v17) (V c main_v10_1) (V c main_v18))) := by
  show (cfg3.win 4).cut (grid3.coords t) ((dat3 (F := Ideal) V c).after 4 t) = _
  rw [after3_4]
  unfold out3_4
  rw [View.canon_unit_zero zero_offsets]
  simp only [View.ld_unit_zero (S := S2000x96) zero_offsets, View.ld_unit_zero (S := S1x96) zero_offsets]
  obtain ⟨-, -, -, -, -, -, -, -, e0, e1⟩ := idx_facts t
  have ht : t.val < 25 := t.isLt
  funext j
  obtain ⟨p, q, rfl⟩ : ∃ (p : Fin 2000) (q : Fin 96), j = ix2 p q := ⟨j 0, j 1, eq_ix2 j⟩
  have hp : p.val < 2000 := p.isLt
  refine (pay_apply (iblk3 V c 3 t) (iblk3 V c 1 t) (iblk3 V c 2 t) (iblk3 V c 0 t) p q).trans ?_
  show _ = Cert.Spec.finish (F := Ideal) (V c main_arg0) (Cert.Spec.combine (F := Ideal) (V c main_v17) (V c main_v10_1) (V c main_v18))
    (((cfg3.win 4).blk t).view.emb (ix2 p q))
  have hemb : ((cfg3.win 4).blk t).view.emb (ix2 p q) = (ix2 (⟨t.val * 2000 + p.val, by omega⟩ : Fin 50000) q : S50000x96.Idx) := by
    funext a
    apply Fin.ext
    match a with
    | ⟨0, _⟩ => show win3_4.index t (0 : Fin 2) * 2000 + 1 * p.val = t.val * 2000 + p.val; rw [e0]; omega
    | ⟨1, _⟩ => show win3_4.index t (1 : Fin 2) * 96 + 1 * q.val = q.val; rw [e1]; omega
  rw [hemb, finish_combine_apply, input_block V c t p q ⟨t.val * 2000 + p.val, by omega⟩ rfl,
    agg_block V c t p q ⟨t.val * 2000 + p.val, by omega⟩ rfl, own_block V c t p q ⟨t.val * 2000 + p.val, by omega⟩ rfl,
    bias_block V c t q]

/-- An entry of the array is in point `t`'s block iff each coordinate is in the block's range on its axis. -/
theorem mem_blk (t : Fin cfg3.N) (i : S50000x96.Idx) :
    i ∈ ((cfg3.win 4).blk t).view.set
      ↔ ∀ a : Fin 2, win3_4.index t a * S2000x96.size a ≤ (i a).val ∧ (i a).val < win3_4.index t a * S2000x96.size a + S2000x96.size a := by
  show i ∈ ((View.whole main_v19).slice (win3_4.rect t)).set ↔ _
  rw [View.set_slice_whole, Rect.mem_set_unit]
  exact Iff.rfl

/-- Every row lies in the block of the point that is its quotient by 2000. -/
theorem covered (i : S50000x96.Idx) :
    ∃ t : Fin cfg3.N, (cfg3.win 4).flush t = true ∧ i ∈ ((cfg3.win 4).blk t).view.set := by
  have h0 : (i 0).val < 50000 := (i 0).isLt
  have h1 : (i 1).val < 96 := (i 1).isLt
  have hq : (i 0).val / 2000 < 25 := by omega
  obtain ⟨-, -, -, -, -, -, -, -, e0, e1⟩ := idx_facts ⟨(i 0).val / 2000, hq⟩
  refine ⟨⟨(i 0).val / 2000, hq⟩, flush3_4 _, ?_⟩
  rw [mem_blk]
  intro a
  match a with
  | ⟨0, _⟩ =>
    show win3_4.index ⟨(i 0).val / 2000, hq⟩ (0 : Fin 2) * 2000 ≤ (i 0).val
      ∧ (i 0).val < win3_4.index ⟨(i 0).val / 2000, hq⟩ (0 : Fin 2) * 2000 + 2000
    rw [e0]
    show (i 0).val / 2000 * 2000 ≤ (i 0).val ∧ (i 0).val < (i 0).val / 2000 * 2000 + 2000
    omega
  | ⟨1, _⟩ =>
    show win3_4.index ⟨(i 0).val / 2000, hq⟩ (1 : Fin 2) * 96 ≤ (i 1).val
      ∧ (i 1).val < win3_4.index ⟨(i 0).val / 2000, hq⟩ (1 : Fin 2) * 96 + 96
    rw [e1]
    omega

/-- The blocks tile the array, so it ends holding the average of the input with the clipped sum, of the arrays as the region found them. -/
theorem final3_4 (c : Dev nD) :
    (dat3 (F := Ideal) V c).arrAt 4 cfg3.N
      = Cert.Spec.finish (F := Ideal) (V c main_arg0) (Cert.Spec.combine (F := Ideal) (V c main_v17) (V c main_v10_1) (V c main_v18)) :=
  (dat3 (F := Ideal) V c).arrAt_eq_of_cover 4 _ (fun t _ => flushed_eq V c t) fun i => covered i

end Cert.KernelIdeal.Region3

end
-- ==== Proof.TakeFill.lean ====
/-
  Reading rows of a matrix at edge source indices, the out-of-range reads filled: each index is first counted from the
  end when negative, the row is gathered, and a mask "0 ≤ index ≤ 49999" (an `and` over the index column's one entry,
  spread along the row) keeps the gathered row or puts a fill value. When every source index lies in `[0, 50000)` the
  index is not moved, the mask is all ones, and the filled read is the plain gather.
-/
import proofs.«400572_j71305047048353_1_alg».proof.Proof.Gen.KernelIdeal
import Idealize.ShloMosaic.Lib.ReduceAll
import Idealize.ShloMosaic.Lib.StableHlo.Predicate
import Idealize.ShloMosaic.Lib.Pipeline.Value

noncomputable section

namespace Cert.KernelIdeal.TakeFill

open Cert.KernelIdeal Cert.KernelIdeal.Gen Idealize.ShloMosaic

/-- An `and`-fold from one over ones is one. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    refine foldl_andi_ones f l _ ?_ (fun n hn => hl n (List.mem_cons_of_mem _ hn))
    show IntOp.andi init (f a) = 1#1
    rw [h, hl a (List.mem_cons_self ..)]; rfl

/-- An `and`-reduction from one over an array of ones is one at every index. -/
theorem reduce_andi_ones {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl]
  exact foldl_andi_ones x _ _ (hinit _) (fun n _ => hx n)

/-- The source index of an edge lies in `[0, 50000)`, as the two signed comparisons say it. -/
def InRange (src : IVec S800000 32) : Prop :=
  ∀ e : S800000.Idx, IntOp.cmpi .sge (src e) 0#32 = 1#1 ∧ IntOp.cmpi .slt (src e) 50000#32 = 1#1

/-- A word in `[0, 50000)` is not negative and is at most 49999. -/
theorem word_facts (v : BitVec 32) (h0 : IntOp.cmpi .sge v 0#32 = 1#1) (h1 : IntOp.cmpi .slt v 50000#32 = 1#1) :
    IntOp.cmpi .slt v 0#32 ≠ 1#1 ∧ IntOp.cmpi .sle v 49999#32 = 1#1 := by
  have e0 : (0#32 : BitVec 32).toInt = 0 := by decide
  have e1 : (50000#32 : BitVec 32).toInt = 50000 := by decide
  have e2 : (49999#32 : BitVec 32).toInt = 49999 := by decide
  simp only [IntOp.cmpi, StableHlo.Predicate.ofBool_eq_one_iff, ne_eq, BitVec.slt, BitVec.sle, decide_eq_true_eq, e0, e1, e2] at h0 h1 ⊢
  omega

/-- A source index in range is not moved by the count-from-the-end step. -/
theorem select_wrap (v : BitVec 32) (h0 : IntOp.cmpi .sge v 0#32 = 1#1) (h1 : IntOp.cmpi .slt v 50000#32 = 1#1) :
    Scalar.select (IntOp.cmpi .slt v 0#32) (IntOp.addi v 50000#32) v = v := by
  exact if_neg (word_facts v h0 h1).1

variable {F : FTy → Type} [FloatOps F]

/-- The edges' source rows as a column of start indices, a negative one counted from the last node. -/
def kIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The mask of the reads that land inside the matrix: `0 ≤ index ≤ 49999`, one bit per edge spread along its row. -/
def inBounds (idx : IVec S800000x1 32) : IVec S800000x96 1 :=
  broadcastInDim S800000x96 ![0] bcast_S800000_S800000x96_0
    (Host.reduce IntOp.andi
      (andi (cmpi .sge idx (broadcastInDim S800000x1 ![] bcast_S_S800000x1 (constantI S_ 32 0#32)))
        (cmpi .sle idx (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_)

/-- The rows of `sup` at the edges' sources, a read outside the matrix replaced by the fill value. -/
def fillTake (sup : FVec F S50000x96 .f32) (src : IVec S800000 32) : FVec F S800000x96 .f32 :=
  select (inBounds (kIdx src)) (Host.gather gather_S50000x96_S800000x1_S800000x96_1_0_n_n_0_1_196 sup (kIdx src))
    (broadcastInDim S800000x96 ![] bcast_S_S800000x96 (constant S_ .f32 0x7FC00000#32))

/-- With the sources in range every start index passes both bounds. -/
theorem kIdx_mem (src : IVec S800000 32) (h : InRange src) (j : S800000x1.Idx) :
    IntOp.cmpi .sge (kIdx src j) 0#32 = 1#1 ∧ IntOp.cmpi .sle (kIdx src j) 49999#32 = 1#1 := by
  show IntOp.cmpi .sge (Scalar.select (IntOp.cmpi .slt (src _) 0#32) (IntOp.addi (src _) 50000#32) (src _)) 0#32 = 1#1
    ∧ IntOp.cmpi .sle (Scalar.select (IntOp.cmpi .slt (src _) 0#32) (IntOp.addi (src _) 50000#32) (src _)) 49999#32 = 1#1
  rw [select_wrap _ (h _).1 (h _).2]
  exact ⟨(h _).1, (word_facts _ (h _).1 (h _).2).2⟩

/-- So the mask is one everywhere. -/
theorem inBounds_kIdx (src : IVec S800000 32) (h : InRange src) (i : S800000x96.Idx) : inBounds (kIdx src) i = 1#1 := by
  show Host.reduce IntOp.andi _ _ _ _ _ = 1#1
  refine reduce_andi_ones _ _ _ _ _ (fun _ => rfl) (fun j => ?_)
  show IntOp.andi (IntOp.cmpi .sge (kIdx src j) 0#32) (IntOp.cmpi .sle (kIdx src j) 49999#32) = 1#1
  obtain ⟨a, b⟩ := kIdx_mem src h j
  rw [a, b]; rfl

/-- A selection under a mask of ones keeps its first operand. -/
theorem select_ones {s : Shape} {α : Type} (c : IVec s 1) (a b : s.Idx → α) (h : ∀ i, c i = 1#1) : select c a b = a := by
  funext i
  show Scalar.select (c i) (a i) (b i) = a i
  rw [h i]
  exact if_pos rfl

/-- With the sources in range the filled read is the plain gather of the rows. -/
theorem fillTake_eq (sup : FVec F S50000x96 .f32) (src : IVec S800000 32) (h : InRange src) :
    fillTake sup src = Host.gather gather_S50000x96_S800000x1_S800000x96_1_0_n_n_0_1_196 sup (kIdx src) :=
  select_ones _ _ _ (inBounds_kIdx src h)

end Cert.KernelIdeal.TakeFill

end
-- ==== Proof.HostStages.lean ====
/-
  The host operations between the kernel regions, read off the program's fold. After the first matrix-product
  region (and again after the second) the program reads the product's rows at the edges' sources with out-of-range reads
  filled, multiplies each row by its edge's weight, adds the rows into their destination nodes from zero, and reshapes
  the bias vector to a row. With every source in range the filled read is the plain gather, and the stage is the
  specification's `aggregate` of `messages`. The other buffers pass through these operations unchanged.
-/
import proofs.«400572_j71305047048353_1_alg».proof.Proof.Gen.KernelIdeal.Launch
import proofs.«400572_j71305047048353_1_alg».proof.Proof.Spec
import proofs.«400572_j71305047048353_1_alg».proof.Proof.TakeFill
import Idealize.ShloMosaic.Lib.StableHlo.Run
import Idealize.ShloMosaic.Lib.Pipeline.Value

set_option maxRecDepth 16384

noncomputable section

namespace Cert.KernelIdeal.HostStages

open Cert.KernelIdeal Cert.KernelIdeal.Gen
open Idealize.ShloMosaic Idealize.ShloMosaic.TcCoe Idealize.SL.Sem Idealize.ShloMosaic.StableHlo

variable {F : FTy → Type} [FloatOps F]
variable (Wv : Valuation τ sig (Elt F))

/-- Contents carried to a buffer's own type and back are the contents. -/
theorem ofBuf_toBuf {sg : RefSig} {Val : EltTy → Type} {T : BufTy} (x : TRef sg T) (v : T.Contents Val) :
    x.ofBuf (x.toBuf v) = v := by
  obtain ⟨r, h, _, _⟩ := x
  subst h
  rfl

/-- A bias vector as a one-row matrix. -/
def biasRow (b : FVec F S96 .f32) : FVec F S1x96 .f32 := fun i => shapeCast S1x96 b shapeCasts_S96_S1x96 i

/-- The reshaped bias is the bias spread along a new leading axis of extent one. -/
theorem biasRow_eq (b : FVec F S96 .f32) :
    biasRow b = broadcastInDim Cert.ReferenceIdeal.S1x96 ![1] Cert.ReferenceIdeal.Gen.bcast_S96_S1x96_1 b := by
  funext i
  unfold biasRow
  rw [shapeCast_addUnit_apply (n := 1) ![96] b shapeCasts_S96_S1x96 i]
  refine (broadcastInDim_apply _ _ b i (fun a => i a.succ) (fun a => ?_)).symm
  match a with
  | ⟨0, _⟩ => show (i 1).val = if (96 : Nat) = 1 then 0 else (i 1).val; rw [if_neg (by decide)]

/-! ## What the host operations leave alone -/

theorem keep_hostOps1_main_arg0 : StableHlo.after hostOps1 Wv (Proc.devRef .tc main_arg0) = Wv (Proc.devRef .tc main_arg0) := by
  after_results_simp
theorem keep_hostOps1_main_arg3 : StableHlo.after hostOps1 Wv (Proc.devRef .tc main_arg3) = Wv (Proc.devRef .tc main_arg3) := by
  after_results_simp
theorem keep_hostOps1_main_arg4 : StableHlo.after hostOps1 Wv (Proc.devRef .tc main_arg4) = Wv (Proc.devRef .tc main_arg4) := by
  after_results_simp
theorem keep_hostOps1_main_arg5 : StableHlo.after hostOps1 Wv (Proc.devRef .tc main_arg5) = Wv (Proc.devRef .tc main_arg5) := by
  after_results_simp
theorem keep_hostOps1_main_arg6 : StableHlo.after hostOps1 Wv (Proc.devRef .tc main_arg6) = Wv (Proc.devRef .tc main_arg6) := by
  after_results_simp
theorem keep_hostOps1_main_arg7 : StableHlo.after hostOps1 Wv (Proc.devRef .tc main_arg7) = Wv (Proc.devRef .tc main_arg7) := by
  after_results_simp
theorem keep_hostOps1_main_arg8 : StableHlo.after hostOps1 Wv (Proc.devRef .tc main_arg8) = Wv (Proc.devRef .tc main_arg8) := by
  after_results_simp
theorem keep_hostOps1_main_arg9 : StableHlo.after hostOps1 Wv (Proc.devRef .tc main_arg9) = Wv (Proc.devRef .tc main_arg9) := by
  after_results_simp
theorem keep_hostOps1_main_v0_1 : StableHlo.after hostOps1 Wv (Proc.devRef .tc main_v0_1) = Wv (Proc.devRef .tc main_v0_1) := by
  after_results_simp
theorem keep_hostOps1_1_main_arg0 : StableHlo.after hostOps1_1 Wv (Proc.devRef .tc main_arg0) = Wv (Proc.devRef .tc main_arg0) := by
  after_results
theorem keep_hostOps1_1_main_arg4 : StableHlo.after hostOps1_1 Wv (Proc.devRef .tc main_arg4) = Wv (Proc.devRef .tc main_arg4) := by
  after_results
theorem keep_hostOps1_1_main_arg5 : StableHlo.after hostOps1_1 Wv (Proc.devRef .tc main_arg5) = Wv (Proc.devRef .tc main_arg5) := by
  after_results
theorem keep_hostOps1_1_main_arg6 : StableHlo.after hostOps1_1 Wv (Proc.devRef .tc main_arg6) = Wv (Proc.devRef .tc main_arg6) := by
  after_results
theorem keep_hostOps1_1_main_arg7 : StableHlo.after hostOps1_1 Wv (Proc.devRef .tc main_arg7) = Wv (Proc.devRef .tc main_arg7) := by
  after_results
theorem keep_hostOps1_1_main_arg8 : StableHlo.after hostOps1_1 Wv (Proc.devRef .tc main_arg8) = Wv (Proc.devRef .tc main_arg8) := by
  after_results
theorem keep_hostOps1_1_main_arg9 : StableHlo.after hostOps1_1 Wv (Proc.devRef .tc main_arg9) = Wv (Proc.devRef .tc main_arg9) := by
  after_results
theorem keep_hostOps1_1_main_v0_1 : StableHlo.after hostOps1_1 Wv (Proc.devRef .tc main_v0_1) = Wv (Proc.devRef .tc main_v0_1) := by
  after_results
theorem keep_hostOps3_main_arg0 : StableHlo.after hostOps3 Wv (Proc.devRef .tc main_arg0) = Wv (Proc.devRef .tc main_arg0) := by
  after_results_simp
theorem keep_hostOps3_main_arg6 : StableHlo.after hostOps3 Wv (Proc.devRef .tc main_arg6) = Wv (Proc.devRef .tc main_arg6) := by
  after_results_simp
theorem keep_hostOps3_main_arg7 : StableHlo.after hostOps3 Wv (Proc.devRef .tc main_arg7) = Wv (Proc.devRef .tc main_arg7) := by
  after_results_simp
theorem keep_hostOps3_main_arg9 : StableHlo.after hostOps3 Wv (Proc.devRef .tc main_arg9) = Wv (Proc.devRef .tc main_arg9) := by
  after_results_simp
theorem keep_hostOps3_main_v10_1 : StableHlo.after hostOps3 Wv (Proc.devRef .tc main_v10_1) = Wv (Proc.devRef .tc main_v10_1) := by
  after_results_simp
theorem keep_hostOps3_1_main_arg0 : StableHlo.after hostOps3_1 Wv (Proc.devRef .tc main_arg0) = Wv (Proc.devRef .tc main_arg0) := by
  after_results
theorem keep_hostOps3_1_main_v10_1 : StableHlo.after hostOps3_1 Wv (Proc.devRef .tc main_v10_1) = Wv (Proc.devRef .tc main_v10_1) := by
  after_results

/-! ## After the first matrix-product region -/

set_option maxHeartbeats 1000000 in
/-- The rows of the first product at the edges' sources, out-of-range reads filled. -/
theorem take1 : (StableHlo.after hostOps1 Wv (Proc.devRef .tc main_v1) : (⟨S800000x96, .f32⟩ : BufTy).Contents (Elt F))
    = TakeFill.fillTake (Wv (Proc.devRef .tc main_v0_0)) (Wv (Proc.devRef .tc main_arg8)) := by
  have key : TRef.ofBuf (TRef.of main_v1 : TRef sig ⟨S800000x96, .f32⟩) (StableHlo.after hostOps1 Wv (Proc.devRef .tc main_v1))
      = TakeFill.fillTake (TRef.ofBuf (TRef.of main_v0_0 : TRef sig ⟨S50000x96, .f32⟩) (Wv (Proc.devRef .tc main_v0_0)))
          (TRef.ofBuf (TRef.of main_arg8 : TRef sig ⟨S800000, .i32⟩) (Wv (Proc.devRef .tc main_arg8))) := by
    after_results_simp
    simp only [ofBuf_toBuf]
    rfl
  exact key

/-- The rows times their edges' weights, added into the destination nodes from zero. -/
theorem sum1 : (StableHlo.after hostOps1_1 Wv (Proc.devRef .tc main_v7) : (⟨S50000x96, .f32⟩ : BufTy).Contents (Elt F))
    = Cert.Spec.aggregate (mulf (Wv (Proc.devRef .tc main_v1))
        (broadcastInDim S800000x96 ![0, 1] bcast_S800000x1_S800000x96_0_1
          (broadcastInDim S800000x1 ![0] bcast_S800000_S800000x1_0 (Wv (Proc.devRef .tc main_arg7)))))
        (Wv (Proc.devRef .tc main_arg9)) := by
  after_results <;> rfl

/-- The bias vector reshaped to a row. -/
theorem row1 : (StableHlo.after hostOps1_1 Wv (Proc.devRef .tc main_v8) : (⟨S1x96, .f32⟩ : BufTy).Contents (Elt F))
    = biasRow (Wv (Proc.devRef .tc main_arg3)) := by
  after_results <;> rfl

/-- The first aggregation stage: with the sources in range, the messages of the first product added into their
    destinations. -/
theorem agg1 (h : TakeFill.InRange (Wv (Proc.devRef .tc main_arg8))) :
    (StableHlo.after hostOps1_1 (StableHlo.after hostOps1 Wv) (Proc.devRef .tc main_v7) : (⟨S50000x96, .f32⟩ : BufTy).Contents (Elt F))
      = Cert.Spec.aggregate (Cert.Spec.messages (Wv (Proc.devRef .tc main_v0_0)) (Wv (Proc.devRef .tc main_arg7))
          (Wv (Proc.devRef .tc main_arg8))) (Wv (Proc.devRef .tc main_arg9)) := by
  rw [sum1, take1, keep_hostOps1_main_arg7, keep_hostOps1_main_arg9, TakeFill.fillTake_eq _ _ h]
  rfl

/-! ## After the second matrix-product region -/

set_option maxHeartbeats 1000000 in
/-- The rows of the second product at the edges' sources, out-of-range reads filled. -/
theorem take3 : (StableHlo.after hostOps3 Wv (Proc.devRef .tc main_v11) : (⟨S800000x96, .f32⟩ : BufTy).Contents (Elt F))
    = TakeFill.fillTake (Wv (Proc.devRef .tc main_v10_0)) (Wv (Proc.devRef .tc main_arg8)) := by
  have key : TRef.ofBuf (TRef.of main_v11 : TRef sig ⟨S800000x96, .f32⟩) (StableHlo.after hostOps3 Wv (Proc.devRef .tc main_v11))
      = TakeFill.fillTake (TRef.ofBuf (TRef.of main_v10_0 : TRef sig ⟨S50000x96, .f32⟩) (Wv (Proc.devRef .tc main_v10_0)))
          (TRef.ofBuf (TRef.of main_arg8 : TRef sig ⟨S800000, .i32⟩) (Wv (Proc.devRef .tc main_arg8))) := by
    after_results_simp
    simp only [ofBuf_toBuf]
    rfl
  exact key

/-- The rows times their edges' weights, added into the destination nodes from zero. -/
theorem sum3 : (StableHlo.after hostOps3_1 Wv (Proc.devRef .tc main_v17) : (⟨S50000x96, .f32⟩ : BufTy).Contents (Elt F))
    = Cert.Spec.aggregate (mulf (Wv (Proc.devRef .tc main_v11))
        (broadcastInDim S800000x96 ![0, 1] bcast_S800000x1_S800000x96_0_1
          (broadcastInDim S800000x1 ![0] bcast_S800000_S800000x1_0 (Wv (Proc.devRef .tc main_arg7)))))
        (Wv (Proc.devRef .tc main_arg9)) := by
  after_results <;> rfl

/-- The bias vector reshaped to a row. -/
theorem row3 : (StableHlo.after hostOps3_1 Wv (Proc.devRef .tc main_v18) : (⟨S1x96, .f32⟩ : BufTy).Contents (Elt F))
    = biasRow (Wv (Proc.devRef .tc main_arg6)) := by
  after_results <;> rfl

/-- The second aggregation stage: with the sources in range, the messages of the second product added into their
    destinations. -/
theorem agg3 (h : TakeFill.InRange (Wv (Proc.devRef .tc main_arg8))) :
    (StableHlo.after hostOps3_1 (StableHlo.after hostOps3 Wv) (Proc.devRef .tc main_v17) : (⟨S50000x96, .f32⟩ : BufTy).Contents (Elt F))
      = Cert.Spec.aggregate (Cert.Spec.messages (Wv (Proc.devRef .tc main_v10_0)) (Wv (Proc.devRef .tc main_arg7))
          (Wv (Proc.devRef .tc main_arg8))) (Wv (Proc.devRef .tc main_arg9)) := by
  rw [sum3, take3, keep_hostOps3_main_arg7, keep_hostOps3_main_arg9, TakeFill.fillTake_eq _ _ h]
  rfl

end Cert.KernelIdeal.HostStages

end
-- ==== Proof.KernelValue.lean ====
/-
  The idealized kernel program's result as one function of its arguments. Its four regions and the host operations
  between them are read in order: the first region leaves the two products `x·W1` and `x·W1_loop`; the host stage
  aggregates the first along the edges; the second region adds the aggregate, the second product and the bias and clips
  at zero, which is one round of the specification; the third and fourth stretches repeat this on the round's output with
  the second set of weights; the last region averages with the input. The arguments pass through every stage unchanged.
  The edge sources are assumed in range, which is what makes the filled row reads plain gathers.
-/
import proofs.«400572_j71305047048353_1_alg».proof.Proof.KernelRun
import proofs.«400572_j71305047048353_1_alg».proof.Proof.Region0
import proofs.«400572_j71305047048353_1_alg».proof.Proof.Region1
import proofs.«400572_j71305047048353_1_alg».proof.Proof.Region2
import proofs.«400572_j71305047048353_1_alg».proof.Proof.Region3
import proofs.«400572_j71305047048353_1_alg».proof.Proof.HostStages

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments through the stages -/

/-- A buffer the first region does not write holds its launch contents after it. -/
theorem W1_of (b : Ref sig .tc) (hb : ∀ w, Pipeline.arrRef spec0 w ≠ b) :
    W1 m ρ c (Proc.devRef .tc b) = m ((c : Thread nD τ).loc b) :=
  (W1_of_ne m ρ c b hb).trans rfl

/-- The input array is read by the first region through an input window, which leaves it as it was. -/
theorem W1_arg0 : W1 m ρ c (Proc.devRef .tc main_arg0) = m ((c : Thread nD τ).loc main_arg0) :=
  (W1_arr m ρ c 0).trans (((dat0 (V0 m ρ) c).arrAt_in 0 rfl _).trans (A_eq0 (V0 m ρ) c 0))

theorem W3_arg0 : W3 m ρ c (Proc.devRef .tc main_arg0) = m ((c : Thread nD τ).loc main_arg0) := by
  show StableHlo.after hostOps1_1 (StableHlo.after hostOps1 (W1 m ρ c)) (Proc.devRef .tc main_arg0) = _
  rw [HostStages.keep_hostOps1_1_main_arg0, HostStages.keep_hostOps1_main_arg0]
  exact W1_arg0 m ρ c
theorem W3_arg4 : W3 m ρ c (Proc.devRef .tc main_arg4) = m ((c : Thread nD τ).loc main_arg4) := by
  show StableHlo.after hostOps1_1 (StableHlo.after hostOps1 (W1 m ρ c)) (Proc.devRef .tc main_arg4) = _
  rw [HostStages.keep_hostOps1_1_main_arg4, HostStages.keep_hostOps1_main_arg4]
  exact W1_of m ρ c main_arg4 (by decide)
theorem W3_arg5 : W3 m ρ c (Proc.devRef .tc main_arg5) = m ((c : Thread nD τ).loc main_arg5) := by
  show StableHlo.after hostOps1_1 (StableHlo.after hostOps1 (W1 m ρ c)) (Proc.devRef .tc main_arg5) = _
  rw [HostStages.keep_hostOps1_1_main_arg5, HostStages.keep_hostOps1_main_arg5]
  exact W1_of m ρ c main_arg5 (by decide)
theorem W3_arg6 : W3 m ρ c (Proc.devRef .tc main_arg6) = m ((c : Thread nD τ).loc main_arg6) := by
  show StableHlo.after hostOps1_1 (StableHlo.after hostOps1 (W1 m ρ c)) (Proc.devRef .tc main_arg6) = _
  rw [HostStages.keep_hostOps1_1_main_arg6, HostStages.keep_hostOps1_main_arg6]
  exact W1_of m ρ c main_arg6 (by decide)
theorem W3_arg7 : W3 m ρ c (Proc.devRef .tc main_arg7) = m ((c : Thread nD τ).loc main_arg7) := by
  show StableHlo.after hostOps1_1 (StableHlo.after hostOps1 (W1 m ρ c)) (Proc.devRef .tc main_arg7) = _
  rw [HostStages.keep_hostOps1_1_main_arg7, HostStages.keep_hostOps1_main_arg7]
  exact W1_of m ρ c main_arg7 (by decide)
theorem W3_arg8 : W3 m ρ c (Proc.devRef .tc main_arg8) = m ((c : Thread nD τ).loc main_arg8) := by
  show StableHlo.after hostOps1_1 (StableHlo.after hostOps1 (W1 m ρ c)) (Proc.devRef .tc main_arg8) = _
  rw [HostStages.keep_hostOps1_1_main_arg8, HostStages.keep_hostOps1_main_arg8]
  exact W1_of m ρ c main_arg8 (by decide)
theorem W3_arg9 : W3 m ρ c (Proc.devRef .tc main_arg9) = m ((c : Thread nD τ).loc main_arg9) := by
  show StableHlo.after hostOps1_1 (StableHlo.after hostOps1 (W1 m ρ c)) (Proc.devRef .tc main_arg9) = _
  rw [HostStages.keep_hostOps1_1_main_arg9, HostStages.keep_hostOps1_main_arg9]
  exact W1_of m ρ c main_arg9 (by decide)
theorem W4_arg0 : W4 m ρ c (Proc.devRef .tc main_arg0) = m ((c : Thread nD τ).loc main_arg0) :=
  (W4_of_ne m ρ c main_arg0 (by decide)).trans (W3_arg0 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  (W4_of_ne m ρ c main_arg7 (by decide)).trans (W3_arg7 m ρ c)
theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)
theorem W5_arg0 : W5 m ρ c (Proc.devRef .tc main_arg0) = m ((c : Thread nD τ).loc main_arg0) :=
  (W5_of_ne m ρ c main_arg0 (by decide)).trans (W4_arg0 m ρ c)
theorem W5_arg6 : W5 m ρ c (Proc.devRef .tc main_arg6) = m ((c : Thread nD τ).loc main_arg6) :=
  (W5_of_ne m ρ c main_arg6 (by decide)).trans (W4_arg6 m ρ c)
theorem W5_arg7 : W5 m ρ c (Proc.devRef .tc main_arg7) = m ((c : Thread nD τ).loc main_arg7) :=
  (W5_of_ne m ρ c main_arg7 (by decide)).trans (W4_arg7 m ρ c)
theorem W5_arg8 : W5 m ρ c (Proc.devRef .tc main_arg8) = m ((c : Thread nD τ).loc main_arg8) :=
  (W5_of_ne m ρ c main_arg8 (by decide)).trans (W4_arg8 m ρ c)
theorem W5_arg9 : W5 m ρ c (Proc.devRef .tc main_arg9) = m ((c : Thread nD τ).loc main_arg9) :=
  (W5_of_ne m ρ c main_arg9 (by decide)).trans (W4_arg9 m ρ c)
theorem W7_arg0 : W7 m ρ c (Proc.devRef .tc main_arg0) = m ((c : Thread nD τ).loc main_arg0) := by
  show StableHlo.after hostOps3_1 (StableHlo.after hostOps3 (W5 m ρ c)) (Proc.devRef .tc main_arg0) = _
  rw [HostStages.keep_hostOps3_1_main_arg0, HostStages.keep_hostOps3_main_arg0]
  exact W5_arg0 m ρ c

/-! ## The first round -/

/-- The first region's first output: the input times the first weight matrix. -/
theorem product1 : (W1 m ρ c (Proc.devRef .tc main_v0_0) : (⟨S50000x96, .f32⟩ : BufTy).Contents (Elt Ideal))
    = Cert.Spec.mm (F := Ideal) (m ((c : Thread nD τ).loc main_arg0)) (m ((c : Thread nD τ).loc main_arg1)) :=
  (W1_arr m ρ c 3).trans (Region0.final0_3 (V0 m ρ) c)

/-- The first region's second output: the input times the first self-loop matrix. -/
theorem own1 : (W1 m ρ c (Proc.devRef .tc main_v0_1) : (⟨S50000x96, .f32⟩ : BufTy).Contents (Elt Ideal))
    = Cert.Spec.mm (F := Ideal) (m ((c : Thread nD τ).loc main_arg0)) (m ((c : Thread nD τ).loc main_arg2)) :=
  (W1_arr m ρ c 4).trans (Region0.final0_4 (V0 m ρ) c)

/-- The aggregate of the first product along the edges. -/
theorem aggregate1 (h : TakeFill.InRange (m ((c : Thread nD τ).loc main_arg8))) :
    (W3 m ρ c (Proc.devRef .tc main_v7) : (⟨S50000x96, .f32⟩ : BufTy).Contents (Elt Ideal))
      = Cert.Spec.aggregate (F := Ideal) (Cert.Spec.messages (F := Ideal) (Cert.Spec.mm (F := Ideal) (m ((c : Thread nD τ).loc main_arg0)) (m ((c : Thread nD τ).loc main_arg1))) (m ((c : Thread nD τ).loc main_arg7)) (m ((c : Thread nD τ).loc main_arg8))) (m ((c : Thread nD τ).loc main_arg9)) := by
  have h' : TakeFill.InRange (W1 m ρ c (Proc.devRef .tc main_arg8)) := by
    rw [W1_of m ρ c main_arg8 (by decide)]; exact h
  show (StableHlo.after hostOps1_1 (StableHlo.after hostOps1 (W1 m ρ c)) (Proc.devRef .tc main_v7) : (⟨S50000x96, .f32⟩ : BufTy).Contents (Elt Ideal)) = _
  rw [HostStages.agg1 (W1 m ρ c) h', product1, W1_of m ρ c main_arg7 (by decide), W1_of m ρ c main_arg8 (by decide),
    W1_of m ρ c main_arg9 (by decide)]

/-- The self-loop product is untouched by the host stage. -/
theorem own3 : (W3 m ρ c (Proc.devRef .tc main_v0_1) : (⟨S50000x96, .f32⟩ : BufTy).Contents (Elt Ideal))
    = Cert.Spec.mm (F := Ideal) (m ((c : Thread nD τ).loc main_arg0)) (m ((c : Thread nD τ).loc main_arg2)) := by
  show (StableHlo.after hostOps1_1 (StableHlo.after hostOps1 (W1 m ρ c)) (Proc.devRef .tc main_v0_1) : (⟨S50000x96, .f32⟩ : BufTy).Contents (Elt Ideal)) = _
  rw [HostStages.keep_hostOps1_1_main_v0_1, HostStages.keep_hostOps1_main_v0_1]
  exact own1 m ρ c

/-- The first bias as a row. -/
theorem row3 : (W3 m ρ c (Proc.devRef .tc main_v8) : (⟨S1x96, .f32⟩ : BufTy).Contents (Elt Ideal))
    = HostStages.biasRow (F := Ideal) (m ((c : Thread nD τ).loc main_arg3)) := by
  show (StableHlo.after hostOps1_1 (StableHlo.after hostOps1 (W1 m ρ c)) (Proc.devRef .tc main_v8) : (⟨S1x96, .f32⟩ : BufTy).Contents (Elt Ideal)) = _
  rw [HostStages.row1, HostStages.keep_hostOps1_main_arg3, W1_of m ρ c main_arg3 (by decide)]

/-- The second region's output is the first round of the specification. -/
theorem round1 (h : TakeFill.InRange (m ((c : Thread nD τ).loc main_arg8))) :
    (W4 m ρ c (Proc.devRef .tc main_v9) : (⟨S50000x96, .f32⟩ : BufTy).Contents (Elt Ideal)) = (Cert.Spec.layer (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9))) := by
  refine (W4_arr m ρ c 3).trans ((Region1.final1_3 (V3 m ρ) c).trans ?_)
  rw [show V3 m ρ c main_v7 = _ from aggregate1 m ρ c h, show V3 m ρ c main_v0_1 = _ from own3 m ρ c,
    show V3 m ρ c main_v8 = _ from row3 m ρ c, HostStages.biasRow_eq]
  rfl

/-! ## The second round -/

theorem product2 (h : TakeFill.InRange (m ((c : Thread nD τ).loc main_arg8))) :
    (W5 m ρ c (Proc.devRef .tc main_v10_0) : (⟨S50000x96, .f32⟩ : BufTy).Contents (Elt Ideal))
      = Cert.Spec.mm (F := Ideal) (Cert.Spec.layer (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9))) (m ((c : Thread nD τ).loc main_arg4)) := by
  refine (W5_arr m ρ c 3).trans ((Region2.final2_3 (V4 m ρ) c).trans ?_)
  rw [show V4 m ρ c main_v9 = _ from round1 m ρ c h, show V4 m ρ c main_arg4 = _ from W4_arg4 m ρ c]

theorem own2 (h : TakeFill.InRange (m ((c : Thread nD τ).loc main_arg8))) :
    (W5 m ρ c (Proc.devRef .tc main_v10_1) : (⟨S50000x96, .f32⟩ : BufTy).Contents (Elt Ideal))
      = Cert.Spec.mm (F := Ideal) (Cert.Spec.layer (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9))) (m ((c : Thread nD τ).loc main_arg5)) := by
  refine (W5_arr m ρ c 4).trans ((Region2.final2_4 (V4 m ρ) c).trans ?_)
  rw [show V4 m ρ c main_v9 = _ from round1 m ρ c h, show V4 m ρ c main_arg5 = _ from W4_arg5 m ρ c]

theorem aggregate2 (h : TakeFill.InRange (m ((c : Thread nD τ).loc main_arg8))) :
    (W7 m ρ c (Proc.devRef .tc main_v17) : (⟨S50000x96, .f32⟩ : BufTy).Contents (Elt Ideal))
      = Cert.Spec.aggregate (F := Ideal) (Cert.Spec.messages (F := Ideal) (Cert.Spec.mm (F := Ideal) (Cert.Spec.layer (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9))) (m ((c : Thread nD τ).loc main_arg4))) (m ((c : Thread nD τ).loc main_arg7)) (m ((c : Thread nD τ).loc main_arg8))) (m ((c : Thread nD τ).loc main_arg9)) := by
  have h' : TakeFill.InRange (W5 m ρ c (Proc.devRef .tc main_arg8)) := by
    rw [W5_arg8 m ρ c]; exact h
  show (StableHlo.after hostOps3_1 (StableHlo.after hostOps3 (W5 m ρ c)) (Proc.devRef .tc main_v17) : (⟨S50000x96, .f32⟩ : BufTy).Contents (Elt Ideal)) = _
  rw [HostStages.agg3 (W5 m ρ c) h', product2 m ρ c h, W5_arg7 m ρ c, W5_arg8 m ρ c, W5_arg9 m ρ c]

theorem own7 (h : TakeFill.InRange (m ((c : Thread nD τ).loc main_arg8))) :
    (W7 m ρ c (Proc.devRef .tc main_v10_1) : (⟨S50000x96, .f32⟩ : BufTy).Contents (Elt Ideal))
      = Cert.Spec.mm (F := Ideal) (Cert.Spec.layer (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9))) (m ((c : Thread nD τ).loc main_arg5)) := by
  show (StableHlo.after hostOps3_1 (StableHlo.after hostOps3 (W5 m ρ c)) (Proc.devRef .tc main_v10_1) : (⟨S50000x96, .f32⟩ : BufTy).Contents (Elt Ideal)) = _
  rw [HostStages.keep_hostOps3_1_main_v10_1, HostStages.keep_hostOps3_main_v10_1]
  exact own2 m ρ c h

theorem row7 : (W7 m ρ c (Proc.devRef .tc main_v18) : (⟨S1x96, .f32⟩ : BufTy).Contents (Elt Ideal))
    = HostStages.biasRow (F := Ideal) (m ((c : Thread nD τ).loc main_arg6)) := by
  show (StableHlo.after hostOps3_1 (StableHlo.after hostOps3 (W5 m ρ c)) (Proc.devRef .tc main_v18) : (⟨S1x96, .f32⟩ : BufTy).Contents (Elt Ideal)) = _
  rw [HostStages.row3, HostStages.keep_hostOps3_main_arg6, W5_arg6 m ρ c]

/-- The result array after the last region: the specification's function of the arguments. -/
theorem result (h : TakeFill.InRange (m ((c : Thread nD τ).loc main_arg8))) :
    (W8 m ρ c (Proc.devRef .tc main_v19) : (⟨S50000x96, .f32⟩ : BufTy).Contents (Elt Ideal))
      = Cert.Spec.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W8_arr m ρ c 4).trans ((Region3.final3_4 (V7 m ρ) c).trans ?_)
  rw [show V7 m ρ c main_arg0 = _ from W7_arg0 m ρ c, show V7 m ρ c main_v17 = _ from aggregate2 m ρ c h,
    show V7 m ρ c main_v10_1 = _ from own7 m ρ c h, show V7 m ρ c main_v18 = _ from row7 m ρ c, HostStages.biasRow_eq]
  rfl

/-! ## The run -/

/-- Every weakly fair execution of the idealized kernel program terminates with the result array at the
    specification's function of the arguments and the arguments unchanged, when the edge sources are in range. -/
theorem run (h : ∀ c : Dev nD, TakeFill.InRange (m ((c : Thread nD τ).loc main_arg8))) :
    θ_run defs (onTc (τ := τ) (main (F := Ideal))) ⟨m, fun _ => 0, ρ⟩ (fun r => ∀ c : Dev nD,
      r.2.mem ((c.tc : Thread nD τ).loc main_v19)
        = Cert.Spec.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r hh c => ⟨(hh c).1.trans (result m ρ c (h c)), (hh c).2⟩) (Launched.run_main m ρ)

end Cert.KernelIdeal.Whole

end
-- ==== Proof.RefSpec.lean ====
/-
  The reference program computes `Spec.out` of its arguments: its composed term is that definition spelt out.
-/
import proofs.«400572_j71305047048353_1_alg».proof.Proof.Spec
import proofs.«400572_j71305047048353_1_alg».proof.Proof.Gen.ReferenceIdeal.Run

noncomputable section

namespace Cert.RefSpec

open Cert.ReferenceIdeal Cert.ReferenceIdeal.Gen Idealize.ShloMosaic Idealize.ShloMosaic.TcCoe Idealize.SL.Sem

variable {F : FTy → Type} [FloatOps F]

set_option maxRecDepth 8192 in
/-- The reference's result is two rounds of aggregation averaged with the input. -/
theorem result_eq (m : (ℓ : Loc nD τ sig) → Buf (Elt F) ℓ) (c : Dev nD) :
    Cert.ReferenceIdeal.Value.res_main_v42 m c
      = Cert.Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.Value.res_main_v42 Cert.Spec.out Cert.Spec.finish Cert.Spec.layer Cert.Spec.combine
    Cert.Spec.aggregate Cert.Spec.messages Cert.Spec.srcIdx Cert.Spec.mm
  rfl

end Cert.RefSpec

end
-- ==== Proof.Domain.lean ====
/-
  What the precondition says of the edge sources: its last conjunct is `jnp.all ((src ≥ 0) & (src < 50000))`, an
  `and`-reduction over all edges of the two signed comparisons; the precondition being one, every edge's source index
  passes both.
-/
import proofs.«400572_j71305047048353_1_alg».proof.Pre_finite_inputs
import proofs.«400572_j71305047048353_1_alg».proof.Proof.TakeFill
import Idealize.ShloMosaic.Lib.ReduceAll
import Idealize.ShloMosaic.Lib.ValueIdx

noncomputable section

namespace Cert.KernelIdeal.Domain

open Idealize.ShloMosaic

variable {F : FTy → Type} [FloatOps F] [Cert.Pre_finite_inputs.Facts]

instance : Subsingleton Cert.Pre_finite_inputs.S_.Idx := ⟨fun a b => funext fun d => d.elim0⟩

/-- Under the precondition every edge's source index lies in `[0, 50000)`. -/
theorem inRange_of_pre (x0 : FVec F Cert.Pre_finite_inputs.S50000x96 .f32) (x1 x2 : FVec F Cert.Pre_finite_inputs.S96x96 .f32)
    (x3 : FVec F Cert.Pre_finite_inputs.S96 .f32) (x4 x5 : FVec F Cert.Pre_finite_inputs.S96x96 .f32)
    (x6 : FVec F Cert.Pre_finite_inputs.S96 .f32) (x7 : FVec F Cert.Pre_finite_inputs.S800000 .f32)
    (x8 x9 : IVec Cert.Pre_finite_inputs.S800000 32)
    (h : Cert.Pre_finite_inputs.fn (F := F) x0 x1 x2 x3 x4 x5 x6 x7 x8 x9 = fun _ => 1#1) :
    Cert.KernelIdeal.TakeFill.InRange x8 := by
  have h1 := congrFun h ValueIdx.ix0
  dsimp only [Cert.Pre_finite_inputs.fn, Cert.Pre_finite_inputs.fn_part1, Cert.Pre_finite_inputs.fn_part2] at h1
  obtain ⟨-, h2⟩ := IntOp.andi_eq_one.1 h1
  intro e
  have h3 := Host.reduce_andi_all _ _ _ _ _ h2 e
  exact IntOp.andi_eq_one.1 h3

end Cert.KernelIdeal.Domain

end
-- ==== Proof.lean ====
/-
  The kernel program and its reference compute the same two-round graph convolution, as extended reals.
  Both send the node features through a weight matrix, read the product at every edge's source, scale by the edge's
  weight, add into the edge's destination, add the node's own features through a second matrix and a bias, clip at zero;
  twice; and average with the input. The kernel program does the matrix products, the clipped sums and the average
  in row blocks of 2000 nodes (four regions), and reads the rows on the host with out-of-range sources FILLED where the
  reference clamps them: the two agree exactly where every source index lies in [0, 50000), which the precondition
  states. A matrix product in blocks is the product's rows (a cast to a narrower float format is the identity on
  extended reals), the pointwise stages act entry by entry, so each region's output array is the specification's
  whole-array function of its inputs; the host stages are the specification's own operations once the fill is gone;
  the reference's term is the specification's definition. No sum is reordered, so nothing here needs finiteness.
-/
import proofs.«400572_j71305047048353_1_alg».proof.Defs
import proofs.«400572_j71305047048353_1_alg».proof.Proof.Gen.Kernel
import proofs.«400572_j71305047048353_1_alg».proof.Proof.Gen.Kernel.Frame
import proofs.«400572_j71305047048353_1_alg».proof.Proof.Gen.KernelIdeal
import proofs.«400572_j71305047048353_1_alg».proof.Proof.Gen.KernelIdeal.Frame
import proofs.«400572_j71305047048353_1_alg».proof.Proof.Gen.ReferenceIdeal
import proofs.«400572_j71305047048353_1_alg».proof.Proof.Gen.Pre_finite_inputs
import proofs.«400572_j71305047048353_1_alg».proof.Proof.Gen.ReferenceIdeal.Run
import proofs.«400572_j71305047048353_1_alg».proof.Proof.KernelValue
import proofs.«400572_j71305047048353_1_alg».proof.Proof.RefSpec
import proofs.«400572_j71305047048353_1_alg».proof.Proof.Domain
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the result array at the specification's function of the arguments: the kernel
    program region by region under the sources' range, the reference by its definition. -/
theorem algebraic : Cert.algebraic_KernelIdeal_ReferenceIdeal := by
  intro m ρ m' ρ' hpre hagree
  have hsrc : ∀ c : Dev Cert.KernelIdeal.nD, Cert.KernelIdeal.TakeFill.InRange
      (m ((c.tc : Thread Cert.KernelIdeal.nD Cert.KernelIdeal.τ).loc Cert.KernelIdeal.main_arg8)) :=
    fun c => Cert.KernelIdeal.Domain.inRange_of_pre _ _ _ _ _ _ _ _ _ _ (hpre c)
  refine ⟨_, Cert.KernelIdeal.Whole.run m ρ hsrc, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.RefSpec.result_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
